-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v49_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x256 : Shape := ⟨2, ![256, 256]⟩
abbrev S256 : Shape := ⟨1, ![256]⟩
abbrev S800000 : Shape := ⟨1, ![800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S50000x256 .f32) (main_arg1 : FVec F S256x256 .f32) (main_arg2 : FVec F S256 .f32) (main_arg3 : IVec S800000 32) (main_arg4 : IVec S800000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S50000x256 : Shape := ⟨2, ![50000, 256]⟩
abbrev S256x256 : Shape := ⟨2, ![256, 256]⟩
abbrev S256 : Shape := ⟨1, ![256]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S2000x256 : Shape := ⟨2, ![2000, 256]⟩
abbrev S2000x1 : Shape := ⟨2, ![2000, 1]⟩
abbrev S1x256 : Shape := ⟨2, ![1, 256]⟩
abbrev S800000x256 : Shape := ⟨2, ![800000, 256]⟩

abbrev nBuf : Space → Nat
  | .hbm => 76
  | .vmem => 48
  | .smem => 0
  | _ => 0

abbrev bufTy : (tb : Table) → Fin (tcTables nBuf tb) → BufTy
  | .hbm, ⟨0, _⟩ => ⟨S50000x256, .f32⟩
  | .hbm, ⟨1, _⟩ => ⟨S256x256, .f32⟩
  | .hbm, ⟨2, _⟩ => ⟨S256, .f32⟩
  | .hbm, ⟨3, _⟩ => ⟨S800000, .i32⟩
  | .hbm, ⟨4, _⟩ => ⟨S800000, .i32⟩
  | .hbm, ⟨5, _⟩ => ⟨S_, .f32⟩
  | .hbm, ⟨6, _⟩ => ⟨S800000, .f32⟩
  | .hbm, ⟨7, _⟩ => ⟨S_, .f32⟩
  | .hbm, ⟨8, _⟩ => ⟨S50000, .f32⟩
  | .hbm, ⟨9, _⟩ => ⟨S800000x1, .i32⟩
  | .hbm, ⟨10, _⟩ => ⟨S50000, .f32⟩
  | .hbm, ⟨11, _⟩ => ⟨S_, .f32⟩
  | .hbm, ⟨12, _⟩ => ⟨S_, .f32⟩
  | .hbm, ⟨13, _⟩ => ⟨S50000, .f32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S50000x1, .f32⟩
  | .hbm, ⟨19, _⟩ => ⟨S_, .f32⟩
  | .hbm, ⟨20, _⟩ => ⟨S50000x1, .f32⟩
  | .hbm, ⟨21, _⟩ => ⟨S_, .f32⟩
  | .hbm, ⟨22, _⟩ => ⟨S50000x256, .f32⟩
  | .hbm, ⟨23, _⟩ => ⟨S50000x256, .f32⟩
  | .hbm, ⟨24, _⟩ => ⟨S50000x256, .f32⟩
  | .hbm, ⟨25, _⟩ => ⟨S50000x256, .f32⟩
  | .hbm, ⟨26, _⟩ => ⟨S50000x256, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x256, .f32⟩
  | .hbm, ⟨36, _⟩ => ⟨S_, .f32⟩
  | .hbm, ⟨37, _⟩ => ⟨S50000x256, .f32⟩
  | .hbm, ⟨38, _⟩ => ⟨S800000x1, .i32⟩
  | .hbm, ⟨39, _⟩ => ⟨S50000x256, .f32⟩
  | .hbm, ⟨40, _⟩ => ⟨S50000x256, .f32⟩
  | .hbm, ⟨41, _⟩ => ⟨S50000x256, .f32⟩
  | .hbm, ⟨42, _⟩ => ⟨S50000x256, .f32⟩
  | .hbm, ⟨43, _⟩ => ⟨S50000x256, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x256, .f32⟩
  | .hbm, ⟨53, _⟩ => ⟨S_, .f32⟩
  | .hbm, ⟨54, _⟩ => ⟨S50000x256, .f32⟩
  | .hbm, ⟨55, _⟩ => ⟨S800000x1, .i32⟩
  | .hbm, ⟨56, _⟩ => ⟨S50000x256, .f32⟩
  | .hbm, ⟨57, _⟩ => ⟨S50000x256, .f32⟩
  | .hbm, ⟨58, _⟩ => ⟨S50000x256, .f32⟩
  | .hbm, ⟨59, _⟩ => ⟨S50000x256, .f32⟩
  | .hbm, ⟨60, _⟩ => ⟨S50000x256, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x256, .f32⟩
  | .hbm, ⟨70, _⟩ => ⟨S_, .f32⟩
  | .hbm, ⟨71, _⟩ => ⟨S50000x256, .f32⟩
  | .hbm, ⟨72, _⟩ => ⟨S800000x1, .i32⟩
  | .hbm, ⟨73, _⟩ => ⟨S50000x256, .f32⟩
  | .hbm, ⟨74, _⟩ => ⟨S50000x256, .f32⟩
  | .hbm, ⟨75, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S2000x1, .f32⟩
  | .local _ .vmem, ⟨3, _⟩ => ⟨S2000x1, .f32⟩
  | .local _ .vmem, ⟨4, _⟩ => ⟨S256x256, .f32⟩
  | .local _ .vmem, ⟨5, _⟩ => ⟨S256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x1, .f32⟩
  | .local _ .vmem, ⟨15, _⟩ => ⟨S2000x1, .f32⟩
  | .local _ .vmem, ⟨16, _⟩ => ⟨S256x256, .f32⟩
  | .local _ .vmem, ⟨17, _⟩ => ⟨S256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x1, .f32⟩
  | .local _ .vmem, ⟨27, _⟩ => ⟨S2000x1, .f32⟩
  | .local _ .vmem, ⟨28, _⟩ => ⟨S256x256, .f32⟩
  | .local _ .vmem, ⟨29, _⟩ => ⟨S256, .f32⟩
  | .local _ .vmem, ⟨30, _⟩ => ⟨S2000x256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S2000x1, .f32⟩
  | .local _ .vmem, ⟨39, _⟩ => ⟨S2000x1, .f32⟩
  | .local _ .vmem, ⟨40, _⟩ => ⟨S256x256, .f32⟩
  | .local _ .vmem, ⟨41, _⟩ => ⟨S256, .f32⟩
  | .local _ .vmem, ⟨42, _⟩ => ⟨S2000x256, .f32⟩
  | .local _ .vmem, ⟨43, _⟩ => ⟨S2000x256, .f32⟩
  | .local _ .vmem, ⟨44, _⟩ => ⟨S2000x256, .f32⟩
  | .local _ .vmem, ⟨45, _⟩ => ⟨S2000x256, .f32⟩
  | .local _ .vmem, ⟨46, _⟩ => ⟨S2000x256, .f32⟩
  | .local _ .vmem, ⟨47, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_cst_4 : Ref sig .tc := ⟨.hbm, 21, rfl⟩
abbrev main_v9 : Ref sig .tc := ⟨.hbm, 22, rfl⟩
abbrev main_v10_0 : Ref sig .tc := ⟨.hbm, 23, rfl⟩
abbrev main_v10_1 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_6 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23_0 : Ref sig .tc := ⟨.hbm, 40, rfl⟩
abbrev main_v23_1 : Ref sig .tc := ⟨.hbm, 41, rfl⟩
abbrev main_v24 : Ref sig .tc := ⟨.hbm, 42, rfl⟩
abbrev main_v25 : Ref sig .tc := ⟨.hbm, 43, rfl⟩
abbrev main_c_7 : Ref sig .tc := ⟨.hbm, 44, rfl⟩
abbrev main_v26 : Ref sig .tc := ⟨.hbm, 45, rfl⟩
abbrev main_v27 : Ref sig .tc := ⟨.hbm, 46, rfl⟩
abbrev main_c_8 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_9 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36_0 : Ref sig .tc := ⟨.hbm, 57, rfl⟩
abbrev main_v36_1 : Ref sig .tc := ⟨.hbm, 58, rfl⟩
abbrev main_v37 : Ref sig .tc := ⟨.hbm, 59, rfl⟩
abbrev main_v38 : Ref sig .tc := ⟨.hbm, 60, rfl⟩
abbrev main_c_10 : Ref sig .tc := ⟨.hbm, 61, rfl⟩
abbrev main_v39 : Ref sig .tc := ⟨.hbm, 62, rfl⟩
abbrev main_v40 : Ref sig .tc := ⟨.hbm, 63, rfl⟩
abbrev main_c_11 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_12 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49_0 : Ref sig .tc := ⟨.hbm, 74, rfl⟩
abbrev main_v49_1 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg4_1 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg6_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg3_0 : Ref sig .tc := ⟨.vmem, 41, rfl⟩
abbrev cc3_stg4_0 : Ref sig .tc := ⟨.vmem, 42, rfl⟩
abbrev cc3_stg4_1 : Ref sig .tc := ⟨.vmem, 43, rfl⟩
abbrev cc3_stg5_0 : Ref sig .tc := ⟨.vmem, 44, rfl⟩
abbrev cc3_stg5_1 : Ref sig .tc := ⟨.vmem, 45, rfl⟩
abbrev cc3_stg6_0 : Ref sig .tc := ⟨.vmem, 46, rfl⟩
abbrev cc3_stg6_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem4_1 : DmaSem sig := 31
abbrev cc2_sem5_0 : DmaSem sig := 32
abbrev cc2_sem5_1 : DmaSem sig := 33
abbrev cc2_sem6_0 : DmaSem sig := 34
abbrev cc2_sem6_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem3_0 : DmaSem sig := 41
abbrev cc3_sem4_0 : DmaSem sig := 42
abbrev cc3_sem4_1 : DmaSem sig := 43
abbrev cc3_sem5_0 : DmaSem sig := 44
abbrev cc3_sem5_1 : DmaSem sig := 45
abbrev cc3_sem6_0 : DmaSem sig := 46
abbrev cc3_sem6_1 : DmaSem sig := 47

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2000x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S50000x256 : S_.BroadcastsInDim S50000x256 (![] : Fin 0 → Fin S50000x256.rank)
  inb_S2000x256_S2000x256_0_0 : ∀ a, (![0, 0] : Fin 2 → Nat) a + S2000x256.size a ≤ S2000x256.size a
  h_S2000x256 : 0 < S2000x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  shapeCasts_S2000x256_S2000x256 : S2000x256.ShapeCasts S2000x256
  bcast_S50000x1_S50000x256_0_1 : S50000x1.BroadcastsInDim S50000x256 (![0, 1] : Fin 2 → Fin S50000x256.rank)
  scatter_S50000_S800000x1_S800000_n_0_0_1_wf : ScatterDims.WF S50000 S800000x1 S800000 [] [0] [0] 1
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .f32 = 32 ∨ (Rect.block (s := S50000x256) S2000x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .f32 = 32 ∨ (Rect.block (s := S50000x256) S2000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .f32 = 32 ∨ (Rect.block (s := S50000x256) S2000x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S50000x256.size a
  hwx1_6 : ∀ i : grid1.Coords, EltTy.bits .f32 = 32 ∨ (Rect.block (s := S50000x256) S2000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S256.size a
  hwx2_3 : ∀ i : grid2.Coords, EltTy.bits .f32 = 32 ∨ (Rect.block (s := S256) S256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S50000x256.size a
  hwx2_4 : ∀ i : grid2.Coords, EltTy.bits .f32 = 32 ∨ (Rect.block (s := S50000x256) S2000x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x256.size a ≤ S50000x256.size a
  hwx2_6 : ∀ i : grid2.Coords, EltTy.bits .f32 = 32 ∨ (Rect.block (s := S50000x256) S2000x256.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256.size a ≤ S256.size a
  hwx3_3 : ∀ i : grid3.Coords, EltTy.bits .f32 = 32 ∨ (Rect.block (s := S256) S256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x256.size a ≤ S50000x256.size a
  hwx3_4 : ∀ i : grid3.Coords, EltTy.bits .f32 = 32 ∨ (Rect.block (s := S50000x256) S2000x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S50000x256.size a
  hwx3_5 : ∀ i : grid3.Coords, EltTy.bits .f32 = 32 ∨ (Rect.block (s := S50000x256) S2000x256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x256.size a ≤ S50000x256.size a
  hwx3_6 : ∀ i : grid3.Coords, EltTy.bits .f32 = 32 ∨ (Rect.block (s := S50000x256) S2000x256.size (cc3_transform_6 i) (hinb3_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S2000x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_0) S2000x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10_1) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v22) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10_0) S2000x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v23_0) S2000x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v23_1) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v35) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg2) S256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v23_0) S2000x256.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v36_0) S2000x256.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v36_1) S2000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v48) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg1) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg2) S256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v36_0) S2000x256.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v49_0) S2000x256.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v49_1) S2000x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x256 : Shape := ⟨2, ![50000, 256]⟩
abbrev S256x256 : Shape := ⟨2, ![256, 256]⟩
abbrev S256 : Shape := ⟨1, ![256]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x256 : Shape := ⟨2, ![1, 256]⟩
abbrev S800000x256 : Shape := ⟨2, ![800000, 256]⟩

abbrev nBuf : Space → Nat
  | .hbm => 101
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x256, .f32⟩
  | .hbm, ⟨2, _⟩ => ⟨S256, .f32⟩
  | .hbm, ⟨3, _⟩ => ⟨S800000, .i32⟩
  | .hbm, ⟨4, _⟩ => ⟨S800000, .i32⟩
  | .hbm, ⟨5, _⟩ => ⟨S_, .f32⟩
  | .hbm, ⟨6, _⟩ => ⟨S800000, .f32⟩
  | .hbm, ⟨7, _⟩ => ⟨S_, .f32⟩
  | .hbm, ⟨8, _⟩ => ⟨S50000, .f32⟩
  | .hbm, ⟨9, _⟩ => ⟨S800000x1, .i32⟩
  | .hbm, ⟨10, _⟩ => ⟨S50000, .f32⟩
  | .hbm, ⟨11, _⟩ => ⟨S_, .f32⟩
  | .hbm, ⟨12, _⟩ => ⟨S_, .f32⟩
  | .hbm, ⟨13, _⟩ => ⟨S50000, .f32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S50000x1, .f32⟩
  | .hbm, ⟨19, _⟩ => ⟨S50000x256, .f32⟩
  | .hbm, ⟨20, _⟩ => ⟨S1x256, .f32⟩
  | .hbm, ⟨21, _⟩ => ⟨S50000x256, .f32⟩
  | .hbm, ⟨22, _⟩ => ⟨S50000x256, .f32⟩
  | .hbm, ⟨23, _⟩ => ⟨S50000x256, .f32⟩
  | .hbm, ⟨24, _⟩ => ⟨S50000x256, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x256, .f32⟩
  | .hbm, ⟨34, _⟩ => ⟨S_, .f32⟩
  | .hbm, ⟨35, _⟩ => ⟨S50000x256, .f32⟩
  | .hbm, ⟨36, _⟩ => ⟨S800000x1, .i32⟩
  | .hbm, ⟨37, _⟩ => ⟨S50000x256, .f32⟩
  | .hbm, ⟨38, _⟩ => ⟨S50000x256, .f32⟩
  | .hbm, ⟨39, _⟩ => ⟨S50000x256, .f32⟩
  | .hbm, ⟨40, _⟩ => ⟨S50000x256, .f32⟩
  | .hbm, ⟨41, _⟩ => ⟨S1x256, .f32⟩
  | .hbm, ⟨42, _⟩ => ⟨S50000x256, .f32⟩
  | .hbm, ⟨43, _⟩ => ⟨S50000x256, .f32⟩
  | .hbm, ⟨44, _⟩ => ⟨S_, .f32⟩
  | .hbm, ⟨45, _⟩ => ⟨S50000x256, .f32⟩
  | .hbm, ⟨46, _⟩ => ⟨S50000x256, .f32⟩
  | .hbm, ⟨47, _⟩ => ⟨S50000x256, .f32⟩
  | .hbm, ⟨48, _⟩ => ⟨S50000x256, .f32⟩
  | .hbm, ⟨49, _⟩ => ⟨S50000x256, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x256, .f32⟩
  | .hbm, ⟨59, _⟩ => ⟨S_, .f32⟩
  | .hbm, ⟨60, _⟩ => ⟨S50000x256, .f32⟩
  | .hbm, ⟨61, _⟩ => ⟨S800000x1, .i32⟩
  | .hbm, ⟨62, _⟩ => ⟨S50000x256, .f32⟩
  | .hbm, ⟨63, _⟩ => ⟨S50000x256, .f32⟩
  | .hbm, ⟨64, _⟩ => ⟨S50000x256, .f32⟩
  | .hbm, ⟨65, _⟩ => ⟨S50000x256, .f32⟩
  | .hbm, ⟨66, _⟩ => ⟨S1x256, .f32⟩
  | .hbm, ⟨67, _⟩ => ⟨S50000x256, .f32⟩
  | .hbm, ⟨68, _⟩ => ⟨S50000x256, .f32⟩
  | .hbm, ⟨69, _⟩ => ⟨S_, .f32⟩
  | .hbm, ⟨70, _⟩ => ⟨S50000x256, .f32⟩
  | .hbm, ⟨71, _⟩ => ⟨S50000x256, .f32⟩
  | .hbm, ⟨72, _⟩ => ⟨S50000x256, .f32⟩
  | .hbm, ⟨73, _⟩ => ⟨S50000x256, .f32⟩
  | .hbm, ⟨74, _⟩ => ⟨S50000x256, .f32⟩
  | .hbm, ⟨75, _⟩ => ⟨S_, .i32⟩
  | .hbm, ⟨76, _⟩ => ⟨S800000, .i32⟩
  | .hbm, ⟨77, _⟩ => ⟨S800000, .i1⟩
  | .hbm, ⟨78, _⟩ => ⟨S_, .i32⟩
  | .hbm, ⟨79, _⟩ => ⟨S800000, .i32⟩
  | .hbm, ⟨80, _⟩ => ⟨S800000, .i32⟩
  | .hbm, ⟨81, _⟩ => ⟨S800000, .i32⟩
  | .hbm, ⟨82, _⟩ => ⟨S800000x1, .i32⟩
  | .hbm, ⟨83, _⟩ => ⟨S800000x256, .f32⟩
  | .hbm, ⟨84, _⟩ => ⟨S_, .f32⟩
  | .hbm, ⟨85, _⟩ => ⟨S50000x256, .f32⟩
  | .hbm, ⟨86, _⟩ => ⟨S800000x1, .i32⟩
  | .hbm, ⟨87, _⟩ => ⟨S50000x256, .f32⟩
  | .hbm, ⟨88, _⟩ => ⟨S50000x256, .f32⟩
  | .hbm, ⟨89, _⟩ => ⟨S50000x256, .f32⟩
  | .hbm, ⟨90, _⟩ => ⟨S50000x256, .f32⟩
  | .hbm, ⟨91, _⟩ => ⟨S1x256, .f32⟩
  | .hbm, ⟨92, _⟩ => ⟨S50000x256, .f32⟩
  | .hbm, ⟨93, _⟩ => ⟨S50000x256, .f32⟩
  | .hbm, ⟨94, _⟩ => ⟨S_, .f32⟩
  | .hbm, ⟨95, _⟩ => ⟨S50000x256, .f32⟩
  | .hbm, ⟨96, _⟩ => ⟨S50000x256, .f32⟩
  | .hbm, ⟨97, _⟩ => ⟨S50000x256, .f32⟩
  | .hbm, ⟨98, _⟩ => ⟨S_, .f32⟩
  | .hbm, ⟨99, _⟩ => ⟨S50000x256, .f32⟩
  | .hbm, ⟨100, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_6 : Ref sig .tc := ⟨.hbm, 50, rfl⟩
abbrev main_v35 : Ref sig .tc := ⟨.hbm, 51, rfl⟩
abbrev main_v36 : Ref sig .tc := ⟨.hbm, 52, rfl⟩
abbrev main_c_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_10 : Ref sig .tc := ⟨.hbm, 75, rfl⟩
abbrev main_v56 : Ref sig .tc := ⟨.hbm, 76, rfl⟩
abbrev main_v57 : Ref sig .tc := ⟨.hbm, 77, rfl⟩
abbrev main_c_11 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_12 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_13 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_call1_cst : Ref sig .tc := ⟨.hbm, 98, rfl⟩
abbrev main_call1_v0 : Ref sig .tc := ⟨.hbm, 99, rfl⟩
abbrev main_v75 : Ref sig .tc := ⟨.hbm, 100, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  scatter_S50000_S800000x1_S800000_n_0_0_1_wf : ScatterDims.WF S50000 S800000x1 S800000 [] [0] [0] 1
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

class Facts : Prop extends Facts₀ where

variable [Facts]
-- ==== Proof.Fold.lean ====
/-
  The contents of the arrays that matter before and after the first pallas_call, generic in the float values: the
  host operations before it compute the normalisation column (the clamped degree to the power -1/2), an all-ones
  column and a zero array, and leave the arguments alone; the call leaves the arrays it only reads, and those it
  does not touch, as they were. Between two calls the host aggregates the previous call's scaled features
  (`aggregate`: a row gather by the source indices, then a scatter-add at the destination indices). The
  normalisation column and the aggregate are the same host operations as the reference's, so they are its stages by
  unfolding.
-/
import proofs.«170831_j83562883711802_1_alg».proof.Proof.Gen.KernelIdeal.Frame
import proofs.«170831_j83562883711802_1_alg».proof.Proof.Gen.ReferenceIdeal.Read

set_option maxRecDepth 16384

noncomputable section

namespace Cert.Hops.Fold

open Cert.KernelIdeal Cert.KernelIdeal.Gen Idealize.ShloMosaic Idealize.ShloMosaic.TcCoe Idealize.SL.Sem Idealize.ShloMosaic.StableHlo

variable {F : FTy → Type} [FloatOps F]

/-- The aggregation between two calls: scale the rows of `h` by the column `n`, gather the rows named by the source
    indices `s` (a negative index counted from the end), and add each gathered row into the row named by the
    destination index in `d`, starting from the zero array. -/
def aggregate (h : Vec F S50000x256 .f32) (n : Vec F S50000x1 .f32) (s d : IVec S800000 32) : Vec F S50000x256 .f32 :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0 d)
    (Host.gather gather_S50000x256_S800000x1_S800000x256_1_0_n_n_0_1_1256
      (mulf h (broadcastInDim S50000x256 ![0, 1] bcast_S50000x1_S50000x256_0_1 n))
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))

/-- It is the reference's aggregation, hop by hop: of the features, of the first scaled aggregate, of the second. -/
theorem aggregate_ref1 (x : Vec F S50000x256 .f32) (s d : IVec S800000 32) :
    aggregate x (Cert.ReferenceIdeal.Read.val_main_v7 (F := F) s) s d = Cert.ReferenceIdeal.Read.val_main_v23 (F := F) x s d := rfl
theorem aggregate_ref2 (x : Vec F S50000x256 .f32) (s d : IVec S800000 32) :
    aggregate (Cert.ReferenceIdeal.Read.val_main_v25 (F := F) x s d) (Cert.ReferenceIdeal.Read.val_main_v7 (F := F) s) s d = Cert.ReferenceIdeal.Read.val_main_v44 (F := F) x s d := rfl
theorem aggregate_ref3 (x : Vec F S50000x256 .f32) (s d : IVec S800000 32) :
    aggregate (Cert.ReferenceIdeal.Read.val_main_v46 (F := F) x s d) (Cert.ReferenceIdeal.Read.val_main_v7 (F := F) s) s d = Cert.ReferenceIdeal.Read.val_main_v65 (F := F) x s d := rfl

variable (m : (ℓ : Loc nD τ sig) → Buf (Elt F) ℓ) (ρ : Dev nD → PrngReg)

/-! ## Before the first call -/

theorem entry_x (c : Dev nD) : W3 m ρ c (Proc.devRef .tc main_arg0) = m ((c : Thread nD τ).loc main_arg0) := by after_results
theorem entry_w (c : Dev nD) : W3 m ρ c (Proc.devRef .tc main_arg1) = m ((c : Thread nD τ).loc main_arg1) := by after_results
theorem entry_b (c : Dev nD) : W3 m ρ c (Proc.devRef .tc main_arg2) = m ((c : Thread nD τ).loc main_arg2) := by after_results
theorem entry_s (c : Dev nD) : W3 m ρ c (Proc.devRef .tc main_arg3) = m ((c : Thread nD τ).loc main_arg3) := by after_results
theorem entry_d (c : Dev nD) : W3 m ρ c (Proc.devRef .tc main_arg4) = m ((c : Thread nD τ).loc main_arg4) := by after_results
/-- The column the first call scales by holds the constant `1.0`. -/
theorem entry_ones (c : Dev nD) : W3 m ρ c (Proc.devRef .tc main_v8)
    = broadcastInDim S50000x1 ![] bcast_S_S50000x1 (constant (F := F) S_ .f32 0x3F800000#32) := by after_results
/-- The running result the first call starts from holds the constant `0.0`. -/
theorem entry_zeros (c : Dev nD) : W3 m ρ c (Proc.devRef .tc main_v9)
    = broadcastInDim S50000x256 ![] bcast_S_S50000x256 (constant (F := F) S_ .f32 0x00000000#32) := by after_results
/-- The normalisation column is the reference's. -/
theorem entry_norm (c : Dev nD) : W3 m ρ c (Proc.devRef .tc main_v7)
    = Cert.ReferenceIdeal.Read.val_main_v7 (F := F) (m ((c : Thread nD τ).loc main_arg3)) := by
  after_results
  rfl

/-! ## Across the first call -/

theorem first_norm (c : Dev nD) : W4 m ρ c (Proc.devRef .tc main_v7) = W3 m ρ c (Proc.devRef .tc main_v7) :=
  W4_of_ne m ρ c main_v7 (by decide)
theorem first_weights (c : Dev nD) : W4 m ρ c (Proc.devRef .tc main_arg1) = W3 m ρ c (Proc.devRef .tc main_arg1) :=
  (W4_arr m ρ c 2).trans (((dat0 (V3 m ρ) c).arrAt_in 2 rfl _).trans (A_eq0 (V3 m ρ) c 2))
theorem first_bias (c : Dev nD) : W4 m ρ c (Proc.devRef .tc main_arg2) = W3 m ρ c (Proc.devRef .tc main_arg2) :=
  (W4_arr m ρ c 3).trans (((dat0 (V3 m ρ) c).arrAt_in 3 rfl _).trans (A_eq0 (V3 m ρ) c 3))
theorem first_src (c : Dev nD) : W4 m ρ c (Proc.devRef .tc main_arg3) = W3 m ρ c (Proc.devRef .tc main_arg3) :=
  W4_of_ne m ρ c main_arg3 (by decide)
theorem first_dst (c : Dev nD) : W4 m ρ c (Proc.devRef .tc main_arg4) = W3 m ρ c (Proc.devRef .tc main_arg4) :=
  W4_of_ne m ρ c main_arg4 (by decide)
theorem first_result (c : Dev nD) : W4 m ρ c (Proc.devRef .tc main_v10_0) = (dat0 (V3 m ρ) c).arrAt 5 cfg0.N := W4_arr m ρ c 5
theorem first_features (c : Dev nD) : W4 m ρ c (Proc.devRef .tc main_v10_1) = (dat0 (V3 m ρ) c).arrAt 6 cfg0.N := W4_arr m ρ c 6

end Cert.Hops.Fold

end
-- ==== Proof.Spec.lean ====
/-
  The mathematics both programs compute, stated once over literal index types and free of either program.

  A hop of the propagation takes the running result `p`, an aggregated feature array `a`, the per-row
  normalisation `n` (one column), the weights `w` and the bias `b`, and returns, at row `r` and column `c`,
      p r c + ((∑ k, (a r k · n r) · w k c) + b c).
  `rowScale a n` is the array `a r k · n r`; `affine h w b` is `(∑ k, h r k · w k c) + b c`. All of it is over the
  extended reals, where the only laws used below are `x · 1 = x` and `0 + x = x` (true at the infinities too), so
  nothing here asks the inputs to be finite.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Hops

open Idealize.ShloMosaic Idealize.ShloMosaic.ValueIdx

/-- Every row `r` of `a` multiplied by the one entry `n r` of the column `n`. -/
def rowScale {R D : Nat} (a : FVec Ideal ⟨2, ![R, D]⟩ .f32) (n : FVec Ideal ⟨2, ![R, 1]⟩ .f32) :
    FVec Ideal ⟨2, ![R, D]⟩ .f32 :=
  fun i => a (ix2 (i 0) (i 1)) * n (ix2 (i 0) (0 : Fin 1))

/-- The matrix product `h · w` with the bias `b` added to every row. -/
def affine {R D E : Nat} (h : FVec Ideal ⟨2, ![R, D]⟩ .f32) (w : FVec Ideal ⟨2, ![D, E]⟩ .f32)
    (b : FVec Ideal ⟨1, ![E]⟩ .f32) : FVec Ideal ⟨2, ![R, E]⟩ .f32 :=
  fun i => (∑ k : Fin D, h (ix2 (i 0) k) * w (ix2 k (i 1))) + b (ix1 (i 1))

/-- One hop: the running result plus the affine image of the row-scaled aggregate. -/
def hop {R D E : Nat} (p : FVec Ideal ⟨2, ![R, E]⟩ .f32) (a : FVec Ideal ⟨2, ![R, D]⟩ .f32)
    (n : FVec Ideal ⟨2, ![R, 1]⟩ .f32) (w : FVec Ideal ⟨2, ![D, E]⟩ .f32) (b : FVec Ideal ⟨1, ![E]⟩ .f32) :
    FVec Ideal ⟨2, ![R, E]⟩ .f32 :=
  fun i => p (ix2 (i 0) (i 1)) + affine (rowScale a n) w b i

/-- The last hop: the same, cut off below at zero. -/
def hopRelu {R D E : Nat} (p : FVec Ideal ⟨2, ![R, E]⟩ .f32) (a : FVec Ideal ⟨2, ![R, D]⟩ .f32)
    (n : FVec Ideal ⟨2, ![R, 1]⟩ .f32) (w : FVec Ideal ⟨2, ![D, E]⟩ .f32) (b : FVec Ideal ⟨1, ![E]⟩ .f32) :
    FVec Ideal ⟨2, ![R, E]⟩ .f32 :=
  fun i => max (hop p a n w b i) 0

theorem rowScale_ix2 {R D : Nat} (a : FVec Ideal ⟨2, ![R, D]⟩ .f32) (n : FVec Ideal ⟨2, ![R, 1]⟩ .f32) (r : Fin R) (c : Fin D) :
    rowScale a n (ix2 r c) = a (ix2 r c) * n (ix2 r (0 : Fin 1)) := rfl

theorem affine_ix2 {R D E : Nat} (h : FVec Ideal ⟨2, ![R, D]⟩ .f32) (w : FVec Ideal ⟨2, ![D, E]⟩ .f32)
    (b : FVec Ideal ⟨1, ![E]⟩ .f32) (r : Fin R) (c : Fin E) :
    affine h w b (ix2 r c) = (∑ k : Fin D, h (ix2 r k) * w (ix2 k c)) + b (ix1 c) := rfl

theorem hop_ix2 {R D E : Nat} (p : FVec Ideal ⟨2, ![R, E]⟩ .f32) (a : FVec Ideal ⟨2, ![R, D]⟩ .f32)
    (n : FVec Ideal ⟨2, ![R, 1]⟩ .f32) (w : FVec Ideal ⟨2, ![D, E]⟩ .f32) (b : FVec Ideal ⟨1, ![E]⟩ .f32) (r : Fin R) (c : Fin E) :
    hop p a n w b (ix2 r c)
      = p (ix2 r c) + ((∑ k : Fin D, (a (ix2 r k) * n (ix2 r (0 : Fin 1))) * w (ix2 k c)) + b (ix1 c)) := rfl

theorem hopRelu_ix2 {R D E : Nat} (p : FVec Ideal ⟨2, ![R, E]⟩ .f32) (a : FVec Ideal ⟨2, ![R, D]⟩ .f32)
    (n : FVec Ideal ⟨2, ![R, 1]⟩ .f32) (w : FVec Ideal ⟨2, ![D, E]⟩ .f32) (b : FVec Ideal ⟨1, ![E]⟩ .f32) (r : Fin R) (c : Fin E) :
    hopRelu p a n w b (ix2 r c)
      = max (p (ix2 r c) + ((∑ k : Fin D, (a (ix2 r k) * n (ix2 r (0 : Fin 1))) * w (ix2 k c)) + b (ix1 c))) 0 := rfl

/-- The float pattern of `1.0` is the real one, and of `0.0` the real zero. -/
theorem one_f32 : Ideal.ofBits .f32 0x3F800000#32 = 1 := IdealRules.sign_bit.ideal_onePat .f32
theorem zero_f32 : Ideal.ofBits .f32 0x00000000#32 = 0 := Ideal.ofBits_zero_f32

/-- Scaling every row by the all-ones column changes nothing. -/
theorem rowScale_ones {R D : Nat} (a : FVec Ideal ⟨2, ![R, D]⟩ .f32) (n : FVec Ideal ⟨2, ![R, 1]⟩ .f32)
    (hn : ∀ i, n i = 1) : rowScale a n = a := by
  funext i
  obtain ⟨r, c, rfl⟩ : ∃ (r : Fin R) (c : Fin D), i = ix2 r c := ⟨i 0, i 1, eq_ix2 i⟩
  rw [rowScale_ix2, hn, mul_one]

/-- A hop from the all-zero running result is the affine image alone. -/
theorem hop_zero {R D E : Nat} (p : FVec Ideal ⟨2, ![R, E]⟩ .f32) (a : FVec Ideal ⟨2, ![R, D]⟩ .f32)
    (n : FVec Ideal ⟨2, ![R, 1]⟩ .f32) (w : FVec Ideal ⟨2, ![D, E]⟩ .f32) (b : FVec Ideal ⟨1, ![E]⟩ .f32)
    (hp : ∀ i, p i = 0) : hop p a n w b = affine (rowScale a n) w b := by
  funext i
  show p _ + _ = _
  rw [hp, zero_add]

/-- A column `[a, 1]` broadcast along its unit axis reads, at `(r, c)`, the column's entry of row `r`. -/
theorem broadcastTo_a1_ab_apply {α : Type} {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Cert.Hops

end
-- ==== Proof.Payload.lean ====
/-
  Each kernel body's two stored values, read at the extended reals, are the spec's functions of the blocks it
  loaded: the second output is the loaded feature block with every row scaled by that row's normalisation entry
  (`rowScale`), and the first is the loaded running result plus the affine image of that scaled block (`hop`; the
  last kernel also cuts it off at zero, `hopRelu`). The bf16 casts in front of the matrix product are the identity
  there, the product into a zero accumulator is the plain sum over the contracted index, and the factor `1.0` the
  body multiplies by is the real `1`.
-/
import proofs.«170831_j83562883711802_1_alg».proof.Proof.Gen.KernelIdeal.Skeleton
import proofs.«170831_j83562883711802_1_alg».proof.Proof.Spec
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.Hops

/-! ## The matrix product of a row block with the weights, at an entry -/

theorem lhs_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- Entry `(p, q)` of the block product into a zero accumulator: the sum over `k` of row `p` of the left block
    times column `q` of the weights. -/
theorem matmul_at {φ₁ φ₂ : FTy} (l : FVec Ideal S2000x256 φ₁) (r : FVec Ideal S256x256 φ₂) (p : Fin 2000) (q : Fin 256) :
    matmul dot_S2000x256_S256x256_S2000x256_1_0_0_1_n_n none l r (constant S2000x256 .f32 0x00000000#32) (ix2 p q)
      = ∑ k : Fin 256, l (ix2 p k) * r (ix2 k q) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact lhs_0 _ _
    | ⟨1, _⟩ => exact (lhs_1 _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (rhs_0 _ _).trans hk
    | ⟨1, _⟩ => exact rhs_1 _ _)
  rw [el, er]

/-- The bias, cast to one row and broadcast over the block's rows, reads at `(p, q)` its entry `q`. -/
theorem bias_at (b : FVec Ideal S256 .f32) (p : Fin 2000) (q : Fin 256) :
    broadcastTo S2000x256 (shapeCast S1x256 b shapeCasts_S256_S1x256) broadcasts_S1x256_S2000x256 (ix2 p q) = b (ix1 q) := by
  rw [broadcastTo_1b_ab_apply, shapeCast_a_1a_apply]

/-- The normalisation column broadcast over the block's columns reads at `(p, q)` its entry of row `p`. -/
theorem norm_at (n : FVec Ideal S2000x1 .f32) (p : Fin 2000) (q : Fin 256) :
    broadcastTo S2000x256 (shapeCast S2000x1 n shapeCasts_S2000x1_S2000x1) broadcasts_S2000x1_S2000x256 (ix2 p q) = n (ix2 p (0 : Fin 1)) := by
  rw [broadcastTo_a1_ab_apply, shapeCast_self]

/-! ## The first call: the features themselves, scaled by an all-ones column -/

theorem scaled0 (v0 : Vec Ideal S2000x256 .f32) (v1 : Vec Ideal S2000x1 .f32) : k0_pay1 v0 v1 = rowScale v0 v1 := by
  funext j
  obtain ⟨p, q, rfl⟩ : ∃ (p : Fin 2000) (q : Fin 256), j = ix2 p q := ⟨j 0, j 1, eq_ix2 j⟩
  unfold k0_pay1
  show v0 (ix2 p q) * broadcastTo S2000x256 (shapeCast S2000x1 v1 shapeCasts_S2000x1_S2000x1) broadcasts_S2000x1_S2000x256 (ix2 p q) = _
  rw [norm_at, rowScale_ix2]

theorem result0 (v0 : Vec Ideal S2000x256 .f32) (v1 : Vec Ideal S2000x1 .f32) (v6 : Vec Ideal S256x256 .f32) (v9 : Vec Ideal S256 .f32)
    (v13 : Vec Ideal S2000x256 .f32) : k0_pay2 v0 v1 v6 v9 v13 = hop v13 v0 v1 v6 v9 := by
  funext j
  obtain ⟨p, q, rfl⟩ : ∃ (p : Fin 2000) (q : Fin 256), j = ix2 p q := ⟨j 0, j 1, eq_ix2 j⟩
  unfold k0_pay2
  rw [scaled0]
  show shapeCast S2000x256 v13 shapeCasts_S2000x256_S2000x256 (ix2 p q)
      + (matmul dot_S2000x256_S256x256_S2000x256_1_0_0_1_n_n none (truncf .bf16 (rowScale v0 v1) bitsLt_bf16_f32) (truncf .bf16 v6 bitsLt_bf16_f32) (constant S2000x256 .f32 0x00000000#32) (ix2 p q)
          + broadcastTo S2000x256 (shapeCast S1x256 v9 shapeCasts_S256_S1x256) broadcasts_S1x256_S2000x256 (ix2 p q))
        * Ideal.ofBits .f32 0x3F800000#32 = _
  rw [shapeCast_self, matmul_at, bias_at, one_f32, mul_one, hop_ix2]
  rfl

/-! ## Calls 1 and 2: the aggregate of the previous features, scaled by the normalisation column -/

theorem scaled1 (v0 : Vec Ideal S2000x256 .f32) (v2 : Vec Ideal S2000x1 .f32) : k1_pay1 v0 v2 = rowScale v0 v2 := by
  funext j
  obtain ⟨p, q, rfl⟩ : ∃ (p : Fin 2000) (q : Fin 256), j = ix2 p q := ⟨j 0, j 1, eq_ix2 j⟩
  unfold k1_pay1
  show shapeCast S2000x256 v0 shapeCasts_S2000x256_S2000x256 (ix2 p q)
      * broadcastTo S2000x256 (shapeCast S2000x1 v2 shapeCasts_S2000x1_S2000x1) broadcasts_S2000x1_S2000x256 (ix2 p q) = _
  rw [shapeCast_self, norm_at, rowScale_ix2]

theorem result1 (v0 : Vec Ideal S2000x256 .f32) (v2 : Vec Ideal S2000x1 .f32) (v7 : Vec Ideal S256x256 .f32) (v10 : Vec Ideal S256 .f32)
    (v14 : Vec Ideal S2000x256 .f32) : k1_pay2 v0 v2 v7 v10 v14 = hop v14 v0 v2 v7 v10 := by
  funext j
  obtain ⟨p, q, rfl⟩ : ∃ (p : Fin 2000) (q : Fin 256), j = ix2 p q := ⟨j 0, j 1, eq_ix2 j⟩
  unfold k1_pay2
  rw [scaled1]
  show shapeCast S2000x256 v14 shapeCasts_S2000x256_S2000x256 (ix2 p q)
      + (matmul dot_S2000x256_S256x256_S2000x256_1_0_0_1_n_n none (truncf .bf16 (rowScale v0 v2) bitsLt_bf16_f32) (truncf .bf16 v7 bitsLt_bf16_f32) (constant S2000x256 .f32 0x00000000#32) (ix2 p q)
          + broadcastTo S2000x256 (shapeCast S1x256 v10 shapeCasts_S256_S1x256) broadcasts_S1x256_S2000x256 (ix2 p q))
        * Ideal.ofBits .f32 0x3F800000#32 = _
  rw [shapeCast_self, matmul_at, bias_at, one_f32, mul_one, hop_ix2]
  rfl

/-- The third call's body is the second's, operation for operation. -/
theorem scaled2 (v0 : Vec Ideal S2000x256 .f32) (v2 : Vec Ideal S2000x1 .f32) : k2_pay1 v0 v2 = rowScale v0 v2 :=
  (show k2_pay1 v0 v2 = k1_pay1 v0 v2 from rfl).trans (scaled1 v0 v2)
theorem result2 (v0 : Vec Ideal S2000x256 .f32) (v2 : Vec Ideal S2000x1 .f32) (v7 : Vec Ideal S256x256 .f32) (v10 : Vec Ideal S256 .f32)
    (v14 : Vec Ideal S2000x256 .f32) : k2_pay2 v0 v2 v7 v10 v14 = hop v14 v0 v2 v7 v10 :=
  (show k2_pay2 v0 v2 v7 v10 v14 = k1_pay2 v0 v2 v7 v10 v14 from rfl).trans (result1 v0 v2 v7 v10 v14)

/-! ## The last call: the same, and the result cut off below at zero -/

theorem scaled3 (v0 : Vec Ideal S2000x256 .f32) (v2 : Vec Ideal S2000x1 .f32) : k3_pay1 v0 v2 = rowScale v0 v2 :=
  (show k3_pay1 v0 v2 = k1_pay1 v0 v2 from rfl).trans (scaled1 v0 v2)
/-- The last body takes the maximum of the second body's value with the constant `0.0`, which is the real zero. -/
theorem result3 (v0 : Vec Ideal S2000x256 .f32) (v2 : Vec Ideal S2000x1 .f32) (v7 : Vec Ideal S256x256 .f32) (v10 : Vec Ideal S256 .f32)
    (v14 : Vec Ideal S2000x256 .f32) : k3_pay2 v0 v2 v7 v10 v14 = hopRelu v14 v0 v2 v7 v10 := by
  funext j
  show max (k1_pay2 v0 v2 v7 v10 v14 j) (Ideal.ofBits .f32 0x00000000#32) = max (hop v14 v0 v2 v7 v10 j) 0
  rw [result1, zero_f32]

end Cert.KernelIdeal.Payload

end
-- ==== Proof.Region0.lean ====
/-
  What the first pallas_call leaves in its two output arrays, whatever the arrays hold when it is entered (`V`).
  The grid has 25 points; point `t` reads rows `2000·t … 2000·t + 1999` of the aggregate (window 0), of the
  normalisation column (window 1) and of the running result (window 4), the whole weights (window 2) and the whole
  bias (window 3), and writes the same rows of the two outputs. A hop is computed row by row, so block `t` of the hop
  of the whole arrays is the hop of the blocks; the 25 blocks cover the 50000 rows, hence the output arrays end at the
  hop (window 5) and at the row-scaled aggregate (window 6) of the entry arrays.
-/
import proofs.«170831_j83562883711802_1_alg».proof.Proof.Gen.KernelIdeal.Frame
import proofs.«170831_j83562883711802_1_alg».proof.Proof.Payload

set_option maxRecDepth 16384

noncomputable section

open scoped BigOperators

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx Cert.Hops

variable (V : (c : Dev nD) → (b : Ref sig .tc) → Buf (Elt Ideal) ((c : Thread nD τ).loc b))

/-- The arrays the call reads, as it finds them, at their literal types: the aggregate, the normalisation column, the
    weights, the bias and the running result. -/
abbrev arrA (c : Dev nD) : FVec Ideal S50000x256 .f32 := V c (Pipeline.arrRef spec0 0)
abbrev arrN (c : Dev nD) : FVec Ideal S50000x1 .f32 := V c (Pipeline.arrRef spec0 1)
abbrev arrW (c : Dev nD) : FVec Ideal S256x256 .f32 := V c (Pipeline.arrRef spec0 2)
abbrev arrB (c : Dev nD) : FVec Ideal S256 .f32 := V c (Pipeline.arrRef spec0 3)
abbrev arrP (c : Dev nD) : FVec Ideal S50000x256 .f32 := V c (Pipeline.arrRef spec0 4)

theorem hz : (![0, 0] : Fin 2 → Nat) = fun _ => 0 := funext fun a => by fin_cases a <;> rfl
theorem hz1 : (![0] : Fin 1 → Nat) = fun _ => 0 := funext fun a => by fin_cases a <;> rfl

/-- The printed index maps over the grid: the three row-blocked inputs and both outputs sit at block row `t`, block
    column `0`; the weights and the bias are one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- WHAT POINT `t` WRITES BACK to window 6 is block `t` of the row-scaled aggregate. -/
theorem flushed6_eq (c : Dev nD) (t : Fin cfg0.N) :
    (dat0 V c).flushed 6 t = ((cfg0.win 6).blk t).view.read (Elt Ideal)
      (rowScale (arrA V c) (arrN V c)) := by
  show (cfg0.win 6).cut (grid0.coords t) ((dat0 V c).after 6 t) = _
  rw [after0_6]
  unfold out0_6
  rw [View.canon_unit_zero hz]
  simp only [View.ld_unit_zero (S := S2000x256) hz, View.ld_unit_zero (S := S2000x1) hz]
  rw [Payload.scaled0]
  obtain ⟨a00, a01, a10, a11, -, -, -, -, -, -, -, a60, a61⟩ := idx_facts t
  funext j
  show arrA V c (((cfg0.win 0).blk t).view.emb (ix2 (j 0) (j 1)))
        * arrN V c (((cfg0.win 1).blk t).view.emb (ix2 (j 0) (0 : Fin 1)))
      = arrA V c (ix2 ((((cfg0.win 6).blk t).view.emb j) 0) ((((cfg0.win 6).blk t).view.emb j) 1))
        * arrN V c (ix2 ((((cfg0.win 6).blk t).view.emb j) 0) (0 : Fin 1))
  have h0 : ((cfg0.win 0).blk t).view.emb (ix2 (j 0) (j 1))
      = ix2 ((((cfg0.win 6).blk t).view.emb j) 0) ((((cfg0.win 6).blk t).view.emb j) 1) := by
    funext a; apply Fin.ext
    match a with
    | ⟨0, _⟩ => show win0_0.index t (0 : Fin 2) * 2000 + 1 * (j 0).val = win0_6.index t (0 : Fin 2) * 2000 + 1 * (j 0).val; omega
    | ⟨1, _⟩ => show win0_0.index t (1 : Fin 2) * 256 + 1 * (j 1).val = win0_6.index t (1 : Fin 2) * 256 + 1 * (j 1).val; omega
  have h1 : ((cfg0.win 1).blk t).view.emb (ix2 (j 0) (0 : Fin 1))
      = ix2 ((((cfg0.win 6).blk t).view.emb j) 0) (0 : Fin 1) := by
    funext a; apply Fin.ext
    match a with
    | ⟨0, _⟩ => show win0_1.index t (0 : Fin 2) * 2000 + 1 * (j 0).val = win0_6.index t (0 : Fin 2) * 2000 + 1 * (j 0).val; omega
    | ⟨1, _⟩ => show win0_1.index t (1 : Fin 2) * 1 + 1 * 0 = 0; omega
  rw [h0, h1]
  rfl

/-- WHAT POINT `t` WRITES BACK to window 5 is block `t` of the hop of the whole arrays. -/
theorem flushed5_eq (c : Dev nD) (t : Fin cfg0.N) :
    (dat0 V c).flushed 5 t = ((cfg0.win 5).blk t).view.read (Elt Ideal)
      (hop (arrP V c) (arrA V c) (arrN V c) (arrW V c) (arrB V c)) := by
  show (cfg0.win 5).cut (grid0.coords t) ((dat0 V c).after 5 t) = _
  rw [after0_5]
  unfold out0_5
  rw [View.canon_unit_zero hz]
  simp only [View.ld_unit_zero (S := S2000x256) hz, View.ld_unit_zero (S := S2000x1) hz,
    View.ld_unit_zero (S := S256x256) hz, View.ld_unit_zero (S := S256) hz1]
  rw [Payload.result0]
  obtain ⟨a00, a01, a10, a11, a20, a21, a30, a40, a41, a50, a51, -, -⟩ := idx_facts t
  funext j
  show arrP V c (((cfg0.win 4).blk t).view.emb (ix2 (j 0) (j 1)))
      + ((∑ k : Fin 256, (arrA V c (((cfg0.win 0).blk t).view.emb (ix2 (j 0) k))
              * arrN V c (((cfg0.win 1).blk t).view.emb (ix2 (j 0) (0 : Fin 1))))
            * arrW V c (((cfg0.win 2).blk t).view.emb (ix2 k (j 1))))
          + arrB V c (((cfg0.win 3).blk t).view.emb (ix1 (j 1))))
    = arrP V c (ix2 ((((cfg0.win 5).blk t).view.emb j) 0) ((((cfg0.win 5).blk t).view.emb j) 1))
      + ((∑ k : Fin 256, (arrA V c (ix2 ((((cfg0.win 5).blk t).view.emb j) 0) k)
              * arrN V c (ix2 ((((cfg0.win 5).blk t).view.emb j) 0) (0 : Fin 1)))
            * arrW V c (ix2 k ((((cfg0.win 5).blk t).view.emb j) 1)))
          + arrB V c (ix1 ((((cfg0.win 5).blk t).view.emb j) 1)))
  have hP : ((cfg0.win 4).blk t).view.emb (ix2 (j 0) (j 1))
      = ix2 ((((cfg0.win 5).blk t).view.emb j) 0) ((((cfg0.win 5).blk t).view.emb j) 1) := by
    funext a; apply Fin.ext
    match a with
    | ⟨0, _⟩ => show win0_4.index t (0 : Fin 2) * 2000 + 1 * (j 0).val = win0_5.index t (0 : Fin 2) * 2000 + 1 * (j 0).val; omega
    | ⟨1, _⟩ => show win0_4.index t (1 : Fin 2) * 256 + 1 * (j 1).val = win0_5.index t (1 : Fin 2) * 256 + 1 * (j 1).val; omega
  have hA : ∀ k : Fin 256, ((cfg0.win 0).blk t).view.emb (ix2 (j 0) k) = ix2 ((((cfg0.win 5).blk t).view.emb j) 0) k := by
    intro k; funext a; apply Fin.ext
    match a with
    | ⟨0, _⟩ => show win0_0.index t (0 : Fin 2) * 2000 + 1 * (j 0).val = win0_5.index t (0 : Fin 2) * 2000 + 1 * (j 0).val; omega
    | ⟨1, _⟩ => show win0_0.index t (1 : Fin 2) * 256 + 1 * k.val = k.val; omega
  have hN : ((cfg0.win 1).blk t).view.emb (ix2 (j 0) (0 : Fin 1)) = ix2 ((((cfg0.win 5).blk t).view.emb j) 0) (0 : Fin 1) := by
    funext a; apply Fin.ext
    match a with
    | ⟨0, _⟩ => show win0_1.index t (0 : Fin 2) * 2000 + 1 * (j 0).val = win0_5.index t (0 : Fin 2) * 2000 + 1 * (j 0).val; omega
    | ⟨1, _⟩ => show win0_1.index t (1 : Fin 2) * 1 + 1 * 0 = 0; omega
  have hW : ∀ k : Fin 256, ((cfg0.win 2).blk t).view.emb (ix2 k (j 1)) = ix2 k ((((cfg0.win 5).blk t).view.emb j) 1) := by
    intro k; funext a; apply Fin.ext
    match a with
    | ⟨0, _⟩ => show win0_2.index t (0 : Fin 2) * 256 + 1 * k.val = k.val; omega
    | ⟨1, _⟩ => show win0_2.index t (1 : Fin 2) * 256 + 1 * (j 1).val = win0_5.index t (1 : Fin 2) * 256 + 1 * (j 1).val; omega
  have hB : ((cfg0.win 3).blk t).view.emb (ix1 (j 1)) = ix1 ((((cfg0.win 5).blk t).view.emb j) 1) := by
    funext a; apply Fin.ext
    match a with
    | ⟨0, _⟩ => show win0_3.index t (0 : Fin 1) * 256 + 1 * (j 1).val = win0_5.index t (1 : Fin 2) * 256 + 1 * (j 1).val; omega
  rw [hP, hN, hB]
  refine congrArg (fun z => _ + (z + _)) (Finset.sum_congr rfl fun k _ => ?_)
  rw [hA k, hW k]
  rfl

/-! ## The blocks cover the rows -/

theorem mem_blk5 (t : Fin cfg0.N) (i : S50000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole (Pipeline.arrRef spec0 5)).slice (win0_5.rect t)).set ↔ _
  rw [View.set_slice_whole, Rect.mem_set_unit]
  exact Iff.rfl

theorem mem_blk6 (t : Fin cfg0.N) (i : S50000x256.Idx) :
    i ∈ ((cfg0.win 6).blk t).view.set ↔ ∀ a : Fin 2, win0_6.index t a * S2000x256.size a ≤ (i a).val
      ∧ (i a).val < win0_6.index t a * S2000x256.size a + S2000x256.size a := by
  show i ∈ ((View.whole (Pipeline.arrRef spec0 6)).slice (win0_6.rect t)).set ↔ _
  rw [View.set_slice_whole, Rect.mem_set_unit]
  exact Iff.rfl

/-- Row `r` lies in the block of point `r / 2000`. -/
theorem cover5 (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have hlt : (i 0).val / 2000 < grid0.N := by rw [N_0]; omega
  refine ⟨⟨(i 0).val / 2000, hlt⟩, flush0_5 _, ?_⟩
  obtain ⟨-, -, -, -, -, -, -, -, -, a50, a51, -, -⟩ := idx_facts ⟨(i 0).val / 2000, hlt⟩
  rw [mem_blk5]
  intro a
  match a with
  | ⟨0, _⟩ =>
    show win0_5.index ⟨(i 0).val / 2000, hlt⟩ (0 : Fin 2) * 2000 ≤ (i 0).val
      ∧ (i 0).val < win0_5.index ⟨(i 0).val / 2000, hlt⟩ (0 : Fin 2) * 2000 + 2000
    rw [a50]; show (i 0).val / 2000 * 2000 ≤ (i 0).val ∧ (i 0).val < (i 0).val / 2000 * 2000 + 2000; omega
  | ⟨1, _⟩ =>
    show win0_5.index ⟨(i 0).val / 2000, hlt⟩ (1 : Fin 2) * 256 ≤ (i 1).val
      ∧ (i 1).val < win0_5.index ⟨(i 0).val / 2000, hlt⟩ (1 : Fin 2) * 256 + 256
    rw [a51]; omega

theorem cover6 (i : S50000x256.Idx) :
    ∃ t : Fin cfg0.N, (cfg0.win 6).flush t = true ∧ i ∈ ((cfg0.win 6).blk t).view.set := by
  have hi0 : (i 0).val < 50000 := (i 0).isLt
  have hi1 : (i 1).val < 256 := (i 1).isLt
  have hlt : (i 0).val / 2000 < grid0.N := by rw [N_0]; omega
  refine ⟨⟨(i 0).val / 2000, hlt⟩, flush0_6 _, ?_⟩
  obtain ⟨-, -, -, -, -, -, -, -, -, -, -, a60, a61⟩ := idx_facts ⟨(i 0).val / 2000, hlt⟩
  rw [mem_blk6]
  intro a
  match a with
  | ⟨0, _⟩ =>
    show win0_6.index ⟨(i 0).val / 2000, hlt⟩ (0 : Fin 2) * 2000 ≤ (i 0).val
      ∧ (i 0).val < win0_6.index ⟨(i 0).val / 2000, hlt⟩ (0 : Fin 2) * 2000 + 2000
    rw [a60]; show (i 0).val / 2000 * 2000 ≤ (i 0).val ∧ (i 0).val < (i 0).val / 2000 * 2000 + 2000; omega
  | ⟨1, _⟩ =>
    show win0_6.index ⟨(i 0).val / 2000, hlt⟩ (1 : Fin 2) * 256 ≤ (i 1).val
      ∧ (i 1).val < win0_6.index ⟨(i 0).val / 2000, hlt⟩ (1 : Fin 2) * 256 + 256
    rw [a61]; omega

/-! ## The two output arrays after the call -/

/-- The running result ends at the hop of the arrays the call was entered with. -/
theorem final5 (c : Dev nD) :
    (dat0 V c).arrAt 5 cfg0.N = hop (arrP V c) (arrA V c) (arrN V c) (arrW V c) (arrB V c) :=
  (dat0 V c).arrAt_eq_of_cover 5 _ (fun t _ => flushed5_eq V c t) cover5

/-- The features handed to the next hop end at the row-scaled aggregate. -/
theorem final6 (c : Dev nD) : (dat0 V c).arrAt 6 cfg0.N = rowScale (arrA V c) (arrN V c) :=
  (dat0 V c).arrAt_eq_of_cover 6 _ (fun t _ => flushed6_eq V c t) cover6

end Cert.KernelIdeal.Region0

end
-- ==== Proof.Region1.lean ====
/-
  What the second pallas_call leaves in its two output arrays, whatever the arrays hold when it is entered (`V`).
  The grid has 25 points; point `t` reads rows `2000·t … 2000·t + 1999` of the aggregate (window 0), of the
  normalisation column (window 1) and of the running result (window 4), the whole weights (window 2) and the whole
  bias (window 3), and writes the same rows of the two outputs. A hop is computed row by row, so block `t` of the hop
  of the whole arrays is the hop of the blocks; the 25 blocks cover the 50000 rows, hence the output arrays end at the
  hop (window 5) and at the row-scaled aggregate (window 6) of the entry arrays.
-/
import proofs.«170831_j83562883711802_1_alg».proof.Proof.Gen.KernelIdeal.Frame
import proofs.«170831_j83562883711802_1_alg».proof.Proof.Payload

set_option maxRecDepth 16384

noncomputable section

open scoped BigOperators

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx Cert.Hops

variable (V : (c : Dev nD) → (b : Ref sig .tc) → Buf (Elt Ideal) ((c : Thread nD τ).loc b))

/-- The arrays the call reads, as it finds them, at their literal types: the aggregate, the normalisation column, the
    weights, the bias and the running result. -/
abbrev arrA (c : Dev nD) : FVec Ideal S50000x256 .f32 := V c (Pipeline.arrRef spec1 0)
abbrev arrN (c : Dev nD) : FVec Ideal S50000x1 .f32 := V c (Pipeline.arrRef spec1 1)
abbrev arrW (c : Dev nD) : FVec Ideal S256x256 .f32 := V c (Pipeline.arrRef spec1 2)
abbrev arrB (c : Dev nD) : FVec Ideal S256 .f32 := V c (Pipeline.arrRef spec1 3)
abbrev arrP (c : Dev nD) : FVec Ideal S50000x256 .f32 := V c (Pipeline.arrRef spec1 4)

theorem hz : (![0, 0] : Fin 2 → Nat) = fun _ => 0 := funext fun a => by fin_cases a <;> rfl
theorem hz1 : (![0] : Fin 1 → Nat) = fun _ => 0 := funext fun a => by fin_cases a <;> rfl

/-- The printed index maps over the grid: the three row-blocked inputs and both outputs sit at block row `t`, block
    column `0`; the weights and the bias are one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- WHAT POINT `t` WRITES BACK to window 6 is block `t` of the row-scaled aggregate. -/
theorem flushed6_eq (c : Dev nD) (t : Fin cfg1.N) :
    (dat1 V c).flushed 6 t = ((cfg1.win 6).blk t).view.read (Elt Ideal)
      (rowScale (arrA V c) (arrN V c)) := by
  show (cfg1.win 6).cut (grid1.coords t) ((dat1 V c).after 6 t) = _
  rw [after1_6]
  unfold out1_6
  rw [View.canon_unit_zero hz]
  simp only [View.ld_unit_zero (S := S2000x256) hz, View.ld_unit_zero (S := S2000x1) hz]
  rw [Payload.scaled1]
  obtain ⟨a00, a01, a10, a11, -, -, -, -, -, -, -, a60, a61⟩ := idx_facts t
  funext j
  show arrA V c (((cfg1.win 0).blk t).view.emb (ix2 (j 0) (j 1)))
        * arrN V c (((cfg1.win 1).blk t).view.emb (ix2 (j 0) (0 : Fin 1)))
      = arrA V c (ix2 ((((cfg1.win 6).blk t).view.emb j) 0) ((((cfg1.win 6).blk t).view.emb j) 1))
        * arrN V c (ix2 ((((cfg1.win 6).blk t).view.emb j) 0) (0 : Fin 1))
  have h0 : ((cfg1.win 0).blk t).view.emb (ix2 (j 0) (j 1))
      = ix2 ((((cfg1.win 6).blk t).view.emb j) 0) ((((cfg1.win 6).blk t).view.emb j) 1) := by
    funext a; apply Fin.ext
    match a with
    | ⟨0, _⟩ => show win1_0.index t (0 : Fin 2) * 2000 + 1 * (j 0).val = win1_6.index t (0 : Fin 2) * 2000 + 1 * (j 0).val; omega
    | ⟨1, _⟩ => show win1_0.index t (1 : Fin 2) * 256 + 1 * (j 1).val = win1_6.index t (1 : Fin 2) * 256 + 1 * (j 1).val; omega
  have h1 : ((cfg1.win 1).blk t).view.emb (ix2 (j 0) (0 : Fin 1))
      = ix2 ((((cfg1.win 6).blk t).view.emb j) 0) (0 : Fin 1) := by
    funext a; apply Fin.ext
    match a with
    | ⟨0, _⟩ => show win1_1.index t (0 : Fin 2) * 2000 + 1 * (j 0).val = win1_6.index t (0 : Fin 2) * 2000 + 1 * (j 0).val; omega
    | ⟨1, _⟩ => show win1_1.index t (1 : Fin 2) * 1 + 1 * 0 = 0; omega
  rw [h0, h1]
  rfl

/-- WHAT POINT `t` WRITES BACK to window 5 is block `t` of the hop of the whole arrays. -/
theorem flushed5_eq (c : Dev nD) (t : Fin cfg1.N) :
    (dat1 V c).flushed 5 t = ((cfg1.win 5).blk t).view.read (Elt Ideal)
      (hop (arrP V c) (arrA V c) (arrN V c) (arrW V c) (arrB V c)) := by
  show (cfg1.win 5).cut (grid1.coords t) ((dat1 V c).after 5 t) = _
  rw [after1_5]
  unfold out1_5
  rw [View.canon_unit_zero hz]
  simp only [View.ld_unit_zero (S := S2000x256) hz, View.ld_unit_zero (S := S2000x1) hz,
    View.ld_unit_zero (S := S256x256) hz, View.ld_unit_zero (S := S256) hz1]
  rw [Payload.result1]
  obtain ⟨a00, a01, a10, a11, a20, a21, a30, a40, a41, a50, a51, -, -⟩ := idx_facts t
  funext j
  show arrP V c (((cfg1.win 4).blk t).view.emb (ix2 (j 0) (j 1)))
      + ((∑ k : Fin 256, (arrA V c (((cfg1.win 0).blk t).view.emb (ix2 (j 0) k))
              * arrN V c (((cfg1.win 1).blk t).view.emb (ix2 (j 0) (0 : Fin 1))))
            * arrW V c (((cfg1.win 2).blk t).view.emb (ix2 k (j 1))))
          + arrB V c (((cfg1.win 3).blk t).view.emb (ix1 (j 1))))
    = arrP V c (ix2 ((((cfg1.win 5).blk t).view.emb j) 0) ((((cfg1.win 5).blk t).view.emb j) 1))
      + ((∑ k : Fin 256, (arrA V c (ix2 ((((cfg1.win 5).blk t).view.emb j) 0) k)
              * arrN V c (ix2 ((((cfg1.win 5).blk t).view.emb j) 0) (0 : Fin 1)))
            * arrW V c (ix2 k ((((cfg1.win 5).blk t).view.emb j) 1)))
          + arrB V c (ix1 ((((cfg1.win 5).blk t).view.emb j) 1)))
  have hP : ((cfg1.win 4).blk t).view.emb (ix2 (j 0) (j 1))
      = ix2 ((((cfg1.win 5).blk t).view.emb j) 0) ((((cfg1.win 5).blk t).view.emb j) 1) := by
    funext a; apply Fin.ext
    match a with
    | ⟨0, _⟩ => show win1_4.index t (0 : Fin 2) * 2000 + 1 * (j 0).val = win1_5.index t (0 : Fin 2) * 2000 + 1 * (j 0).val; omega
    | ⟨1, _⟩ => show win1_4.index t (1 : Fin 2) * 256 + 1 * (j 1).val = win1_5.index t (1 : Fin 2) * 256 + 1 * (j 1).val; omega
  have hA : ∀ k : Fin 256, ((cfg1.win 0).blk t).view.emb (ix2 (j 0) k) = ix2 ((((cfg1.win 5).blk t).view.emb j) 0) k := by
    intro k; funext a; apply Fin.ext
    match a with
    | ⟨0, _⟩ => show win1_0.index t (0 : Fin 2) * 2000 + 1 * (j 0).val = win1_5.index t (0 : Fin 2) * 2000 + 1 * (j 0).val; omega
    | ⟨1, _⟩ => show win1_0.index t (1 : Fin 2) * 256 + 1 * k.val = k.val; omega
  have hN : ((cfg1.win 1).blk t).view.emb (ix2 (j 0) (0 : Fin 1)) = ix2 ((((cfg1.win 5).blk t).view.emb j) 0) (0 : Fin 1) := by
    funext a; apply Fin.ext
    match a with
    | ⟨0, _⟩ => show win1_1.index t (0 : Fin 2) * 2000 + 1 * (j 0).val = win1_5.index t (0 : Fin 2) * 2000 + 1 * (j 0).val; omega
    | ⟨1, _⟩ => show win1_1.index t (1 : Fin 2) * 1 + 1 * 0 = 0; omega
  have hW : ∀ k : Fin 256, ((cfg1.win 2).blk t).view.emb (ix2 k (j 1)) = ix2 k ((((cfg1.win 5).blk t).view.emb j) 1) := by
    intro k; funext a; apply Fin.ext
    match a with
    | ⟨0, _⟩ => show win1_2.index t (0 : Fin 2) * 256 + 1 * k.val = k.val; omega
    | ⟨1, _⟩ => show win1_2.index t (1 : Fin 2) * 256 + 1 * (j 1).val = win1_5.index t (1 : Fin 2) * 256 + 1 * (j 1).val; omega
  have hB : ((cfg1.win 3).blk t).view.emb (ix1 (j 1)) = ix1 ((((cfg1.win 5).blk t).view.emb j) 1) := by
    funext a; apply Fin.ext
    match a with
    | ⟨0, _⟩ => show win1_3.index t (0 : Fin 1) * 256 + 1 * (j 1).val = win1_5.index t (1 : Fin 2) * 256 + 1 * (j 1).val; omega
  rw [hP, hN, hB]
  refine congrArg (fun z => _ + (z + _)) (Finset.sum_congr rfl fun k _ => ?_)
  rw [hA k, hW k]
  rfl

/-! ## The blocks cover the rows -/

theorem mem_blk5 (t : Fin cfg1.N) (i : S50000x256.Idx) :
    i ∈ ((cfg1.win 5).blk t).view.set ↔ ∀ a : Fin 2, win1_5.index t a * S2000x256.size a ≤ (i a).val
      ∧ (i a).val < win1_5.index t a * S2000x256.size a + S2000x256.size a := by
  show i ∈ ((View.whole (Pipeline.arrRef spec1 5)).slice (win1_5.rect t)).set ↔ _
  rw [View.set_slice_whole, Rect.mem_set_unit]
  exact Iff.rfl

theorem mem_blk6 (t : Fin cfg1.N) (i : S50000x256.Idx) :
    i ∈ ((cfg1.win 6).blk t).view.set ↔ ∀ a : Fin 2, win1_6.index t a * S2000x256.size a ≤ (i a).val
      ∧ (i a).val < win1_6.index t a * S2000x256.size a + S2000x256.size a := by
  show i ∈ ((View.whole (Pipeline.arrRef spec1 6)).slice (win1_6.rect t)).set ↔ _
  rw [View.set_slice_whole, Rect.mem_set_unit]
  exact Iff.rfl

/-- Row `r` lies in the block of point `r / 2000`. -/
theorem cover5 (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  have hlt : (i 0).val / 2000 < grid1.N := by rw [N_1]; omega
  refine ⟨⟨(i 0).val / 2000, hlt⟩, flush1_5 _, ?_⟩
  obtain ⟨-, -, -, -, -, -, -, -, -, a50, a51, -, -⟩ := idx_facts ⟨(i 0).val / 2000, hlt⟩
  rw [mem_blk5]
  intro a
  match a with
  | ⟨0, _⟩ =>
    show win1_5.index ⟨(i 0).val / 2000, hlt⟩ (0 : Fin 2) * 2000 ≤ (i 0).val
      ∧ (i 0).val < win1_5.index ⟨(i 0).val / 2000, hlt⟩ (0 : Fin 2) * 2000 + 2000
    rw [a50]; show (i 0).val / 2000 * 2000 ≤ (i 0).val ∧ (i 0).val < (i 0).val / 2000 * 2000 + 2000; omega
  | ⟨1, _⟩ =>
    show win1_5.index ⟨(i 0).val / 2000, hlt⟩ (1 : Fin 2) * 256 ≤ (i 1).val
      ∧ (i 1).val < win1_5.index ⟨(i 0).val / 2000, hlt⟩ (1 : Fin 2) * 256 + 256
    rw [a51]; omega

theorem cover6 (i : S50000x256.Idx) :
    ∃ t : Fin cfg1.N, (cfg1.win 6).flush t = true ∧ i ∈ ((cfg1.win 6).blk t).view.set := by
  have hi0 : (i 0).val < 50000 := (i 0).isLt
  have hi1 : (i 1).val < 256 := (i 1).isLt
  have hlt : (i 0).val / 2000 < grid1.N := by rw [N_1]; omega
  refine ⟨⟨(i 0).val / 2000, hlt⟩, flush1_6 _, ?_⟩
  obtain ⟨-, -, -, -, -, -, -, -, -, -, -, a60, a61⟩ := idx_facts ⟨(i 0).val / 2000, hlt⟩
  rw [mem_blk6]
  intro a
  match a with
  | ⟨0, _⟩ =>
    show win1_6.index ⟨(i 0).val / 2000, hlt⟩ (0 : Fin 2) * 2000 ≤ (i 0).val
      ∧ (i 0).val < win1_6.index ⟨(i 0).val / 2000, hlt⟩ (0 : Fin 2) * 2000 + 2000
    rw [a60]; show (i 0).val / 2000 * 2000 ≤ (i 0).val ∧ (i 0).val < (i 0).val / 2000 * 2000 + 2000; omega
  | ⟨1, _⟩ =>
    show win1_6.index ⟨(i 0).val / 2000, hlt⟩ (1 : Fin 2) * 256 ≤ (i 1).val
      ∧ (i 1).val < win1_6.index ⟨(i 0).val / 2000, hlt⟩ (1 : Fin 2) * 256 + 256
    rw [a61]; omega

/-! ## The two output arrays after the call -/

/-- The running result ends at the hop of the arrays the call was entered with. -/
theorem final5 (c : Dev nD) :
    (dat1 V c).arrAt 5 cfg1.N = hop (arrP V c) (arrA V c) (arrN V c) (arrW V c) (arrB V c) :=
  (dat1 V c).arrAt_eq_of_cover 5 _ (fun t _ => flushed5_eq V c t) cover5

/-- The features handed to the next hop end at the row-scaled aggregate. -/
theorem final6 (c : Dev nD) : (dat1 V c).arrAt 6 cfg1.N = rowScale (arrA V c) (arrN V c) :=
  (dat1 V c).arrAt_eq_of_cover 6 _ (fun t _ => flushed6_eq V c t) cover6

end Cert.KernelIdeal.Region1

end
-- ==== Proof.Hop1.lean ====
/-
  Hop 1 of 3: from one pallas_call's exit to the next one's. The host stretch between the two calls aggregates the
  features the earlier call handed on and touches nothing else that matters; the later call then writes the
  row-scaled aggregate and the next running result, and leaves the normalisation column, the weights, the bias and
  the two index arrays as they were. So if the arrays hold `H` (features), `Rv` (running result), `nrm`, `w`, `b`,
  `s`, `d` at the earlier call's exit, they hold the row-scaled aggregate of `H`, the hop of `Rv` with that aggregate,
  and the same `nrm`, `w`, `b`, `s`, `d` at the later call's (`step`).
-/
import proofs.«170831_j83562883711802_1_alg».proof.Proof.Fold
import proofs.«170831_j83562883711802_1_alg».proof.Proof.Region1

set_option maxRecDepth 16384

noncomputable section

namespace Cert.Hops.Hop1

open Cert.KernelIdeal Cert.KernelIdeal.Gen Idealize.ShloMosaic Idealize.ShloMosaic.TcCoe Idealize.SL.Sem Idealize.ShloMosaic.StableHlo
open Cert.Hops Cert.Hops.Fold

section Stretch

variable {F : FTy → Type} [FloatOps F]
variable (m : (ℓ : Loc nD τ sig) → Buf (Elt F) ℓ) (ρ : Dev nD → PrngReg)

/-- The stretch aggregates the features the call before handed on. -/
theorem aggregated (c : Dev nD) : W5 m ρ c (Proc.devRef .tc main_v22)
    = aggregate (W4 m ρ c (Proc.devRef .tc main_v10_1)) (W4 m ρ c (Proc.devRef .tc main_v7)) (W4 m ρ c (Proc.devRef .tc main_arg3)) (W4 m ρ c (Proc.devRef .tc main_arg4)) := by
  after_results_simp
  rfl
theorem stretch_norm (c : Dev nD) : W5 m ρ c (Proc.devRef .tc main_v7) = W4 m ρ c (Proc.devRef .tc main_v7) := by after_results
theorem stretch_weights (c : Dev nD) : W5 m ρ c (Proc.devRef .tc main_arg1) = W4 m ρ c (Proc.devRef .tc main_arg1) := by after_results
theorem stretch_bias (c : Dev nD) : W5 m ρ c (Proc.devRef .tc main_arg2) = W4 m ρ c (Proc.devRef .tc main_arg2) := by after_results
theorem stretch_src (c : Dev nD) : W5 m ρ c (Proc.devRef .tc main_arg3) = W4 m ρ c (Proc.devRef .tc main_arg3) := by after_results
theorem stretch_dst (c : Dev nD) : W5 m ρ c (Proc.devRef .tc main_arg4) = W4 m ρ c (Proc.devRef .tc main_arg4) := by after_results
theorem stretch_result (c : Dev nD) : W5 m ρ c (Proc.devRef .tc main_v10_0) = W4 m ρ c (Proc.devRef .tc main_v10_0) := by after_results

/-- The call leaves its input arrays as entered and every array it does not touch as it was. -/
theorem call_norm (c : Dev nD) : W6 m ρ c (Proc.devRef .tc main_v7) = W5 m ρ c (Proc.devRef .tc main_v7) :=
  (W6_arr m ρ c 1).trans (((dat1 (V5 m ρ) c).arrAt_in 1 rfl _).trans (A_eq1 (V5 m ρ) c 1))
theorem call_weights (c : Dev nD) : W6 m ρ c (Proc.devRef .tc main_arg1) = W5 m ρ c (Proc.devRef .tc main_arg1) :=
  (W6_arr m ρ c 2).trans (((dat1 (V5 m ρ) c).arrAt_in 2 rfl _).trans (A_eq1 (V5 m ρ) c 2))
theorem call_bias (c : Dev nD) : W6 m ρ c (Proc.devRef .tc main_arg2) = W5 m ρ c (Proc.devRef .tc main_arg2) :=
  (W6_arr m ρ c 3).trans (((dat1 (V5 m ρ) c).arrAt_in 3 rfl _).trans (A_eq1 (V5 m ρ) c 3))
theorem call_src (c : Dev nD) : W6 m ρ c (Proc.devRef .tc main_arg3) = W5 m ρ c (Proc.devRef .tc main_arg3) :=
  W6_of_ne m ρ c main_arg3 (by decide)
theorem call_dst (c : Dev nD) : W6 m ρ c (Proc.devRef .tc main_arg4) = W5 m ρ c (Proc.devRef .tc main_arg4) :=
  W6_of_ne m ρ c main_arg4 (by decide)
theorem call_result (c : Dev nD) : W6 m ρ c (Proc.devRef .tc main_v23_0) = (dat1 (V5 m ρ) c).arrAt 5 cfg1.N := W6_arr m ρ c 5
theorem call_features (c : Dev nD) : W6 m ρ c (Proc.devRef .tc main_v23_1) = (dat1 (V5 m ρ) c).arrAt 6 cfg1.N := W6_arr m ρ c 6

end Stretch

section Step

variable (m : (ℓ : Loc nD τ sig) → Buf (Elt Ideal) ℓ) (ρ : Dev nD → PrngReg)

/-- The hop, from one call's exit to the next call's exit, at the extended reals. -/
theorem step (c : Dev nD) (H Rv : FVec Ideal S50000x256 .f32) (nrm : FVec Ideal S50000x1 .f32) (w : FVec Ideal S256x256 .f32)
    (b : FVec Ideal S256 .f32) (s d : IVec S800000 32)
    (hH : W4 m ρ c (Proc.devRef .tc main_v10_1) = H) (hR : W4 m ρ c (Proc.devRef .tc main_v10_0) = Rv)
    (hN : W4 m ρ c (Proc.devRef .tc main_v7) = nrm) (hW : W4 m ρ c (Proc.devRef .tc main_arg1) = w) (hB : W4 m ρ c (Proc.devRef .tc main_arg2) = b)
    (hS : W4 m ρ c (Proc.devRef .tc main_arg3) = s) (hD : W4 m ρ c (Proc.devRef .tc main_arg4) = d) :
    W6 m ρ c (Proc.devRef .tc main_v23_1) = rowScale (aggregate (F := Ideal) H nrm s d) nrm
    ∧ W6 m ρ c (Proc.devRef .tc main_v23_0) = hop Rv (aggregate (F := Ideal) H nrm s d) nrm w b
    ∧ W6 m ρ c (Proc.devRef .tc main_v7) = nrm ∧ W6 m ρ c (Proc.devRef .tc main_arg1) = w ∧ W6 m ρ c (Proc.devRef .tc main_arg2) = b
    ∧ W6 m ρ c (Proc.devRef .tc main_arg3) = s ∧ W6 m ρ c (Proc.devRef .tc main_arg4) = d := by
  have eA : W5 m ρ c (Proc.devRef .tc main_v22) = aggregate (F := Ideal) H nrm s d := by rw [aggregated, hH, hN, hS, hD]
  have eN : W5 m ρ c (Proc.devRef .tc main_v7) = nrm := (stretch_norm m ρ c).trans hN
  have eW : W5 m ρ c (Proc.devRef .tc main_arg1) = w := (stretch_weights m ρ c).trans hW
  have eB : W5 m ρ c (Proc.devRef .tc main_arg2) = b := (stretch_bias m ρ c).trans hB
  have eS : W5 m ρ c (Proc.devRef .tc main_arg3) = s := (stretch_src m ρ c).trans hS
  have eD : W5 m ρ c (Proc.devRef .tc main_arg4) = d := (stretch_dst m ρ c).trans hD
  have eR : W5 m ρ c (Proc.devRef .tc main_v10_0) = Rv := (stretch_result m ρ c).trans hR
  refine ⟨?_, ?_, (call_norm m ρ c).trans eN, (call_weights m ρ c).trans eW, (call_bias m ρ c).trans eB,
    (call_src m ρ c).trans eS, (call_dst m ρ c).trans eD⟩
  · rw [call_features, Cert.KernelIdeal.Region1.final6]
    show rowScale (W5 m ρ c (Proc.devRef .tc main_v22)) (W5 m ρ c (Proc.devRef .tc main_v7)) = _
    rw [eA, eN]
  · rw [call_result, Cert.KernelIdeal.Region1.final5]
    show hop (W5 m ρ c (Proc.devRef .tc main_v10_0)) (W5 m ρ c (Proc.devRef .tc main_v22)) (W5 m ρ c (Proc.devRef .tc main_v7))
      (W5 m ρ c (Proc.devRef .tc main_arg1)) (W5 m ρ c (Proc.devRef .tc main_arg2)) = _
    rw [eR, eA, eN, eW, eB]

end Step

end Cert.Hops.Hop1

end
-- ==== Proof.Region2.lean ====
/-
  What the third pallas_call leaves in its two output arrays, whatever the arrays hold when it is entered (`V`).
  The grid has 25 points; point `t` reads rows `2000·t … 2000·t + 1999` of the aggregate (window 0), of the
  normalisation column (window 1) and of the running result (window 4), the whole weights (window 2) and the whole
  bias (window 3), and writes the same rows of the two outputs. A hop is computed row by row, so block `t` of the hop
  of the whole arrays is the hop of the blocks; the 25 blocks cover the 50000 rows, hence the output arrays end at the
  hop (window 5) and at the row-scaled aggregate (window 6) of the entry arrays.
-/
import proofs.«170831_j83562883711802_1_alg».proof.Proof.Gen.KernelIdeal.Frame
import proofs.«170831_j83562883711802_1_alg».proof.Proof.Payload

set_option maxRecDepth 16384

noncomputable section

open scoped BigOperators

namespace Cert.KernelIdeal.Region2

open Cert.KernelIdeal Cert.KernelIdeal.Gen Idealize.ShloMosaic Idealize.ShloMosaic.TcCoe Idealize.SL.Sem
open Idealize.ShloMosaic.Pipeline (Dat)
open Idealize.ShloMosaic.ValueIdx Cert.Hops

variable (V : (c : Dev nD) → (b : Ref sig .tc) → Buf (Elt Ideal) ((c : Thread nD τ).loc b))

/-- The arrays the call reads, as it finds them, at their literal types: the aggregate, the normalisation column, the
    weights, the bias and the running result. -/
abbrev arrA (c : Dev nD) : FVec Ideal S50000x256 .f32 := V c (Pipeline.arrRef spec2 0)
abbrev arrN (c : Dev nD) : FVec Ideal S50000x1 .f32 := V c (Pipeline.arrRef spec2 1)
abbrev arrW (c : Dev nD) : FVec Ideal S256x256 .f32 := V c (Pipeline.arrRef spec2 2)
abbrev arrB (c : Dev nD) : FVec Ideal S256 .f32 := V c (Pipeline.arrRef spec2 3)
abbrev arrP (c : Dev nD) : FVec Ideal S50000x256 .f32 := V c (Pipeline.arrRef spec2 4)

theorem hz : (![0, 0] : Fin 2 → Nat) = fun _ => 0 := funext fun a => by fin_cases a <;> rfl
theorem hz1 : (![0] : Fin 1 → Nat) = fun _ => 0 := funext fun a => by fin_cases a <;> rfl

/-- The printed index maps over the grid: the three row-blocked inputs and both outputs sit at block row `t`, block
    column `0`; the weights and the bias are one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = t.val ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- WHAT POINT `t` WRITES BACK to window 6 is block `t` of the row-scaled aggregate. -/
theorem flushed6_eq (c : Dev nD) (t : Fin cfg2.N) :
    (dat2 V c).flushed 6 t = ((cfg2.win 6).blk t).view.read (Elt Ideal)
      (rowScale (arrA V c) (arrN V c)) := by
  show (cfg2.win 6).cut (grid2.coords t) ((dat2 V c).after 6 t) = _
  rw [after2_6]
  unfold out2_6
  rw [View.canon_unit_zero hz]
  simp only [View.ld_unit_zero (S := S2000x256) hz, View.ld_unit_zero (S := S2000x1) hz]
  rw [Payload.scaled2]
  obtain ⟨a00, a01, a10, a11, -, -, -, -, -, -, -, a60, a61⟩ := idx_facts t
  funext j
  show arrA V c (((cfg2.win 0).blk t).view.emb (ix2 (j 0) (j 1)))
        * arrN V c (((cfg2.win 1).blk t).view.emb (ix2 (j 0) (0 : Fin 1)))
      = arrA V c (ix2 ((((cfg2.win 6).blk t).view.emb j) 0) ((((cfg2.win 6).blk t).view.emb j) 1))
        * arrN V c (ix2 ((((cfg2.win 6).blk t).view.emb j) 0) (0 : Fin 1))
  have h0 : ((cfg2.win 0).blk t).view.emb (ix2 (j 0) (j 1))
      = ix2 ((((cfg2.win 6).blk t).view.emb j) 0) ((((cfg2.win 6).blk t).view.emb j) 1) := by
    funext a; apply Fin.ext
    match a with
    | ⟨0, _⟩ => show win2_0.index t (0 : Fin 2) * 2000 + 1 * (j 0).val = win2_6.index t (0 : Fin 2) * 2000 + 1 * (j 0).val; omega
    | ⟨1, _⟩ => show win2_0.index t (1 : Fin 2) * 256 + 1 * (j 1).val = win2_6.index t (1 : Fin 2) * 256 + 1 * (j 1).val; omega
  have h1 : ((cfg2.win 1).blk t).view.emb (ix2 (j 0) (0 : Fin 1))
      = ix2 ((((cfg2.win 6).blk t).view.emb j) 0) (0 : Fin 1) := by
    funext a; apply Fin.ext
    match a with
    | ⟨0, _⟩ => show win2_1.index t (0 : Fin 2) * 2000 + 1 * (j 0).val = win2_6.index t (0 : Fin 2) * 2000 + 1 * (j 0).val; omega
    | ⟨1, _⟩ => show win2_1.index t (1 : Fin 2) * 1 + 1 * 0 = 0; omega
  rw [h0, h1]
  rfl

/-- WHAT POINT `t` WRITES BACK to window 5 is block `t` of the hop of the whole arrays. -/
theorem flushed5_eq (c : Dev nD) (t : Fin cfg2.N) :
    (dat2 V c).flushed 5 t = ((cfg2.win 5).blk t).view.read (Elt Ideal)
      (hop (arrP V c) (arrA V c) (arrN V c) (arrW V c) (arrB V c)) := by
  show (cfg2.win 5).cut (grid2.coords t) ((dat2 V c).after 5 t) = _
  rw [after2_5]
  unfold out2_5
  rw [View.canon_unit_zero hz]
  simp only [View.ld_unit_zero (S := S2000x256) hz, View.ld_unit_zero (S := S2000x1) hz,
    View.ld_unit_zero (S := S256x256) hz, View.ld_unit_zero (S := S256) hz1]
  rw [Payload.result2]
  obtain ⟨a00, a01, a10, a11, a20, a21, a30, a40, a41, a50, a51, -, -⟩ := idx_facts t
  funext j
  show arrP V c (((cfg2.win 4).blk t).view.emb (ix2 (j 0) (j 1)))
      + ((∑ k : Fin 256, (arrA V c (((cfg2.win 0).blk t).view.emb (ix2 (j 0) k))
              * arrN V c (((cfg2.win 1).blk t).view.emb (ix2 (j 0) (0 : Fin 1))))
            * arrW V c (((cfg2.win 2).blk t).view.emb (ix2 k (j 1))))
          + arrB V c (((cfg2.win 3).blk t).view.emb (ix1 (j 1))))
    = arrP V c (ix2 ((((cfg2.win 5).blk t).view.emb j) 0) ((((cfg2.win 5).blk t).view.emb j) 1))
      + ((∑ k : Fin 256, (arrA V c (ix2 ((((cfg2.win 5).blk t).view.emb j) 0) k)
              * arrN V c (ix2 ((((cfg2.win 5).blk t).view.emb j) 0) (0 : Fin 1)))
            * arrW V c (ix2 k ((((cfg2.win 5).blk t).view.emb j) 1)))
          + arrB V c (ix1 ((((cfg2.win 5).blk t).view.emb j) 1)))
  have hP : ((cfg2.win 4).blk t).view.emb (ix2 (j 0) (j 1))
      = ix2 ((((cfg2.win 5).blk t).view.emb j) 0) ((((cfg2.win 5).blk t).view.emb j) 1) := by
    funext a; apply Fin.ext
    match a with
    | ⟨0, _⟩ => show win2_4.index t (0 : Fin 2) * 2000 + 1 * (j 0).val = win2_5.index t (0 : Fin 2) * 2000 + 1 * (j 0).val; omega
    | ⟨1, _⟩ => show win2_4.index t (1 : Fin 2) * 256 + 1 * (j 1).val = win2_5.index t (1 : Fin 2) * 256 + 1 * (j 1).val; omega
  have hA : ∀ k : Fin 256, ((cfg2.win 0).blk t).view.emb (ix2 (j 0) k) = ix2 ((((cfg2.win 5).blk t).view.emb j) 0) k := by
    intro k; funext a; apply Fin.ext
    match a with
    | ⟨0, _⟩ => show win2_0.index t (0 : Fin 2) * 2000 + 1 * (j 0).val = win2_5.index t (0 : Fin 2) * 2000 + 1 * (j 0).val; omega
    | ⟨1, _⟩ => show win2_0.index t (1 : Fin 2) * 256 + 1 * k.val = k.val; omega
  have hN : ((cfg2.win 1).blk t).view.emb (ix2 (j 0) (0 : Fin 1)) = ix2 ((((cfg2.win 5).blk t).view.emb j) 0) (0 : Fin 1) := by
    funext a; apply Fin.ext
    match a with
    | ⟨0, _⟩ => show win2_1.index t (0 : Fin 2) * 2000 + 1 * (j 0).val = win2_5.index t (0 : Fin 2) * 2000 + 1 * (j 0).val; omega
    | ⟨1, _⟩ => show win2_1.index t (1 : Fin 2) * 1 + 1 * 0 = 0; omega
  have hW : ∀ k : Fin 256, ((cfg2.win 2).blk t).view.emb (ix2 k (j 1)) = ix2 k ((((cfg2.win 5).blk t).view.emb j) 1) := by
    intro k; funext a; apply Fin.ext
    match a with
    | ⟨0, _⟩ => show win2_2.index t (0 : Fin 2) * 256 + 1 * k.val = k.val; omega
    | ⟨1, _⟩ => show win2_2.index t (1 : Fin 2) * 256 + 1 * (j 1).val = win2_5.index t (1 : Fin 2) * 256 + 1 * (j 1).val; omega
  have hB : ((cfg2.win 3).blk t).view.emb (ix1 (j 1)) = ix1 ((((cfg2.win 5).blk t).view.emb j) 1) := by
    funext a; apply Fin.ext
    match a with
    | ⟨0, _⟩ => show win2_3.index t (0 : Fin 1) * 256 + 1 * (j 1).val = win2_5.index t (1 : Fin 2) * 256 + 1 * (j 1).val; omega
  rw [hP, hN, hB]
  refine congrArg (fun z => _ + (z + _)) (Finset.sum_congr rfl fun k _ => ?_)
  rw [hA k, hW k]
  rfl

/-! ## The blocks cover the rows -/

theorem mem_blk5 (t : Fin cfg2.N) (i : S50000x256.Idx) :
    i ∈ ((cfg2.win 5).blk t).view.set ↔ ∀ a : Fin 2, win2_5.index t a * S2000x256.size a ≤ (i a).val
      ∧ (i a).val < win2_5.index t a * S2000x256.size a + S2000x256.size a := by
  show i ∈ ((View.whole (Pipeline.arrRef spec2 5)).slice (win2_5.rect t)).set ↔ _
  rw [View.set_slice_whole, Rect.mem_set_unit]
  exact Iff.rfl

theorem mem_blk6 (t : Fin cfg2.N) (i : S50000x256.Idx) :
    i ∈ ((cfg2.win 6).blk t).view.set ↔ ∀ a : Fin 2, win2_6.index t a * S2000x256.size a ≤ (i a).val
      ∧ (i a).val < win2_6.index t a * S2000x256.size a + S2000x256.size a := by
  show i ∈ ((View.whole (Pipeline.arrRef spec2 6)).slice (win2_6.rect t)).set ↔ _
  rw [View.set_slice_whole, Rect.mem_set_unit]
  exact Iff.rfl

/-- Row `r` lies in the block of point `r / 2000`. -/
theorem cover5 (i : S50000x256.Idx) :
    ∃ t : Fin cfg2.N, (cfg2.win 5).flush t = true ∧ i ∈ ((cfg2.win 5).blk t).view.set := by
  have hi0 : (i 0).val < 50000 := (i 0).isLt
  have hi1 : (i 1).val < 256 := (i 1).isLt
  have hlt : (i 0).val / 2000 < grid2.N := by rw [N_2]; omega
  refine ⟨⟨(i 0).val / 2000, hlt⟩, flush2_5 _, ?_⟩
  obtain ⟨-, -, -, -, -, -, -, -, -, a50, a51, -, -⟩ := idx_facts ⟨(i 0).val / 2000, hlt⟩
  rw [mem_blk5]
  intro a
  match a with
  | ⟨0, _⟩ =>
    show win2_5.index ⟨(i 0).val / 2000, hlt⟩ (0 : Fin 2) * 2000 ≤ (i 0).val
      ∧ (i 0).val < win2_5.index ⟨(i 0).val / 2000, hlt⟩ (0 : Fin 2) * 2000 + 2000
    rw [a50]; show (i 0).val / 2000 * 2000 ≤ (i 0).val ∧ (i 0).val < (i 0).val / 2000 * 2000 + 2000; omega
  | ⟨1, _⟩ =>
    show win2_5.index ⟨(i 0).val / 2000, hlt⟩ (1 : Fin 2) * 256 ≤ (i 1).val
      ∧ (i 1).val < win2_5.index ⟨(i 0).val / 2000, hlt⟩ (1 : Fin 2) * 256 + 256
    rw [a51]; omega

theorem cover6 (i : S50000x256.Idx) :
    ∃ t : Fin cfg2.N, (cfg2.win 6).flush t = true ∧ i ∈ ((cfg2.win 6).blk t).view.set := by
  have hi0 : (i 0).val < 50000 := (i 0).isLt
  have hi1 : (i 1).val < 256 := (i 1).isLt
  have hlt : (i 0).val / 2000 < grid2.N := by rw [N_2]; omega
  refine ⟨⟨(i 0).val / 2000, hlt⟩, flush2_6 _, ?_⟩
  obtain ⟨-, -, -, -, -, -, -, -, -, -, -, a60, a61⟩ := idx_facts ⟨(i 0).val / 2000, hlt⟩
  rw [mem_blk6]
  intro a
  match a with
  | ⟨0, _⟩ =>
    show win2_6.index ⟨(i 0).val / 2000, hlt⟩ (0 : Fin 2) * 2000 ≤ (i 0).val
      ∧ (i 0).val < win2_6.index ⟨(i 0).val / 2000, hlt⟩ (0 : Fin 2) * 2000 + 2000
    rw [a60]; show (i 0).val / 2000 * 2000 ≤ (i 0).val ∧ (i 0).val < (i 0).val / 2000 * 2000 + 2000; omega
  | ⟨1, _⟩ =>
    show win2_6.index ⟨(i 0).val / 2000, hlt⟩ (1 : Fin 2) * 256 ≤ (i 1).val
      ∧ (i 1).val < win2_6.index ⟨(i 0).val / 2000, hlt⟩ (1 : Fin 2) * 256 + 256
    rw [a61]; omega

/-! ## The two output arrays after the call -/

/-- The running result ends at the hop of the arrays the call was entered with. -/
theorem final5 (c : Dev nD) :
    (dat2 V c).arrAt 5 cfg2.N = hop (arrP V c) (arrA V c) (arrN V c) (arrW V c) (arrB V c) :=
  (dat2 V c).arrAt_eq_of_cover 5 _ (fun t _ => flushed5_eq V c t) cover5

/-- The features handed to the next hop end at the row-scaled aggregate. -/
theorem final6 (c : Dev nD) : (dat2 V c).arrAt 6 cfg2.N = rowScale (arrA V c) (arrN V c) :=
  (dat2 V c).arrAt_eq_of_cover 6 _ (fun t _ => flushed6_eq V c t) cover6

end Cert.KernelIdeal.Region2

end
-- ==== Proof.Hop2.lean ====
/-
  Hop 2 of 3: from one pallas_call's exit to the next one's. The host stretch between the two calls aggregates the
  features the earlier call handed on and touches nothing else that matters; the later call then writes the
  row-scaled aggregate and the next running result, and leaves the normalisation column, the weights, the bias and
  the two index arrays as they were. So if the arrays hold `H` (features), `Rv` (running result), `nrm`, `w`, `b`,
  `s`, `d` at the earlier call's exit, they hold the row-scaled aggregate of `H`, the hop of `Rv` with that aggregate,
  and the same `nrm`, `w`, `b`, `s`, `d` at the later call's (`step`).
-/
import proofs.«170831_j83562883711802_1_alg».proof.Proof.Fold
import proofs.«170831_j83562883711802_1_alg».proof.Proof.Region2

set_option maxRecDepth 16384

noncomputable section

namespace Cert.Hops.Hop2

open Cert.KernelIdeal Cert.KernelIdeal.Gen Idealize.ShloMosaic Idealize.ShloMosaic.TcCoe Idealize.SL.Sem Idealize.ShloMosaic.StableHlo
open Cert.Hops Cert.Hops.Fold

section Stretch

variable {F : FTy → Type} [FloatOps F]
variable (m : (ℓ : Loc nD τ sig) → Buf (Elt F) ℓ) (ρ : Dev nD → PrngReg)

/-- The stretch aggregates the features the call before handed on. -/
theorem aggregated (c : Dev nD) : W7 m ρ c (Proc.devRef .tc main_v35)
    = aggregate (W6 m ρ c (Proc.devRef .tc main_v23_1)) (W6 m ρ c (Proc.devRef .tc main_v7)) (W6 m ρ c (Proc.devRef .tc main_arg3)) (W6 m ρ c (Proc.devRef .tc main_arg4)) := by
  after_results_simp
  rfl
theorem stretch_norm (c : Dev nD) : W7 m ρ c (Proc.devRef .tc main_v7) = W6 m ρ c (Proc.devRef .tc main_v7) := by after_results
theorem stretch_weights (c : Dev nD) : W7 m ρ c (Proc.devRef .tc main_arg1) = W6 m ρ c (Proc.devRef .tc main_arg1) := by after_results
theorem stretch_bias (c : Dev nD) : W7 m ρ c (Proc.devRef .tc main_arg2) = W6 m ρ c (Proc.devRef .tc main_arg2) := by after_results
theorem stretch_src (c : Dev nD) : W7 m ρ c (Proc.devRef .tc main_arg3) = W6 m ρ c (Proc.devRef .tc main_arg3) := by after_results
theorem stretch_dst (c : Dev nD) : W7 m ρ c (Proc.devRef .tc main_arg4) = W6 m ρ c (Proc.devRef .tc main_arg4) := by after_results
theorem stretch_result (c : Dev nD) : W7 m ρ c (Proc.devRef .tc main_v23_0) = W6 m ρ c (Proc.devRef .tc main_v23_0) := by after_results

/-- The call leaves its input arrays as entered and every array it does not touch as it was. -/
theorem call_norm (c : Dev nD) : W8 m ρ c (Proc.devRef .tc main_v7) = W7 m ρ c (Proc.devRef .tc main_v7) :=
  (W8_arr m ρ c 1).trans (((dat2 (V7 m ρ) c).arrAt_in 1 rfl _).trans (A_eq2 (V7 m ρ) c 1))
theorem call_weights (c : Dev nD) : W8 m ρ c (Proc.devRef .tc main_arg1) = W7 m ρ c (Proc.devRef .tc main_arg1) :=
  (W8_arr m ρ c 2).trans (((dat2 (V7 m ρ) c).arrAt_in 2 rfl _).trans (A_eq2 (V7 m ρ) c 2))
theorem call_bias (c : Dev nD) : W8 m ρ c (Proc.devRef .tc main_arg2) = W7 m ρ c (Proc.devRef .tc main_arg2) :=
  (W8_arr m ρ c 3).trans (((dat2 (V7 m ρ) c).arrAt_in 3 rfl _).trans (A_eq2 (V7 m ρ) c 3))
theorem call_src (c : Dev nD) : W8 m ρ c (Proc.devRef .tc main_arg3) = W7 m ρ c (Proc.devRef .tc main_arg3) :=
  W8_of_ne m ρ c main_arg3 (by decide)
theorem call_dst (c : Dev nD) : W8 m ρ c (Proc.devRef .tc main_arg4) = W7 m ρ c (Proc.devRef .tc main_arg4) :=
  W8_of_ne m ρ c main_arg4 (by decide)
theorem call_result (c : Dev nD) : W8 m ρ c (Proc.devRef .tc main_v36_0) = (dat2 (V7 m ρ) c).arrAt 5 cfg2.N := W8_arr m ρ c 5
theorem call_features (c : Dev nD) : W8 m ρ c (Proc.devRef .tc main_v36_1) = (dat2 (V7 m ρ) c).arrAt 6 cfg2.N := W8_arr m ρ c 6

end Stretch

section Step

variable (m : (ℓ : Loc nD τ sig) → Buf (Elt Ideal) ℓ) (ρ : Dev nD → PrngReg)

/-- The hop, from one call's exit to the next call's exit, at the extended reals. -/
theorem step (c : Dev nD) (H Rv : FVec Ideal S50000x256 .f32) (nrm : FVec Ideal S50000x1 .f32) (w : FVec Ideal S256x256 .f32)
    (b : FVec Ideal S256 .f32) (s d : IVec S800000 32)
    (hH : W6 m ρ c (Proc.devRef .tc main_v23_1) = H) (hR : W6 m ρ c (Proc.devRef .tc main_v23_0) = Rv)
    (hN : W6 m ρ c (Proc.devRef .tc main_v7) = nrm) (hW : W6 m ρ c (Proc.devRef .tc main_arg1) = w) (hB : W6 m ρ c (Proc.devRef .tc main_arg2) = b)
    (hS : W6 m ρ c (Proc.devRef .tc main_arg3) = s) (hD : W6 m ρ c (Proc.devRef .tc main_arg4) = d) :
    W8 m ρ c (Proc.devRef .tc main_v36_1) = rowScale (aggregate (F := Ideal) H nrm s d) nrm
    ∧ W8 m ρ c (Proc.devRef .tc main_v36_0) = hop Rv (aggregate (F := Ideal) H nrm s d) nrm w b
    ∧ W8 m ρ c (Proc.devRef .tc main_v7) = nrm ∧ W8 m ρ c (Proc.devRef .tc main_arg1) = w ∧ W8 m ρ c (Proc.devRef .tc main_arg2) = b
    ∧ W8 m ρ c (Proc.devRef .tc main_arg3) = s ∧ W8 m ρ c (Proc.devRef .tc main_arg4) = d := by
  have eA : W7 m ρ c (Proc.devRef .tc main_v35) = aggregate (F := Ideal) H nrm s d := by rw [aggregated, hH, hN, hS, hD]
  have eN : W7 m ρ c (Proc.devRef .tc main_v7) = nrm := (stretch_norm m ρ c).trans hN
  have eW : W7 m ρ c (Proc.devRef .tc main_arg1) = w := (stretch_weights m ρ c).trans hW
  have eB : W7 m ρ c (Proc.devRef .tc main_arg2) = b := (stretch_bias m ρ c).trans hB
  have eS : W7 m ρ c (Proc.devRef .tc main_arg3) = s := (stretch_src m ρ c).trans hS
  have eD : W7 m ρ c (Proc.devRef .tc main_arg4) = d := (stretch_dst m ρ c).trans hD
  have eR : W7 m ρ c (Proc.devRef .tc main_v23_0) = Rv := (stretch_result m ρ c).trans hR
  refine ⟨?_, ?_, (call_norm m ρ c).trans eN, (call_weights m ρ c).trans eW, (call_bias m ρ c).trans eB,
    (call_src m ρ c).trans eS, (call_dst m ρ c).trans eD⟩
  · rw [call_features, Cert.KernelIdeal.Region2.final6]
    show rowScale (W7 m ρ c (Proc.devRef .tc main_v35)) (W7 m ρ c (Proc.devRef .tc main_v7)) = _
    rw [eA, eN]
  · rw [call_result, Cert.KernelIdeal.Region2.final5]
    show hop (W7 m ρ c (Proc.devRef .tc main_v23_0)) (W7 m ρ c (Proc.devRef .tc main_v35)) (W7 m ρ c (Proc.devRef .tc main_v7))
      (W7 m ρ c (Proc.devRef .tc main_arg1)) (W7 m ρ c (Proc.devRef .tc main_arg2)) = _
    rw [eR, eA, eN, eW, eB]

end Step

end Cert.Hops.Hop2

end
-- ==== Proof.Region3.lean ====
/-
  What the last pallas_call leaves in its two output arrays, whatever the arrays hold when it is entered (`V`).
  It is the earlier calls' computation with the running result cut off below at zero before it is stored (`hopRelu`);
  the cut-off is entry by entry, so the argument by row blocks is the earlier calls'.
  The grid has 25 points; point `t` reads rows `2000·t … 2000·t + 1999` of the aggregate (window 0), of the
  normalisation column (window 1) and of the running result (window 4), the whole weights (window 2) and the whole
  bias (window 3), and writes the same rows of the two outputs. A hop is computed row by row, so block `t` of the hop
  of the whole arrays is the hop of the blocks; the 25 blocks cover the 50000 rows, hence the output arrays end at the
  hop (window 5) and at the row-scaled aggregate (window 6) of the entry arrays.
-/
import proofs.«170831_j83562883711802_1_alg».proof.Proof.Gen.KernelIdeal.Frame
import proofs.«170831_j83562883711802_1_alg».proof.Proof.Payload

set_option maxRecDepth 16384

noncomputable section

open scoped BigOperators

namespace Cert.KernelIdeal.Region3

open Cert.KernelIdeal Cert.KernelIdeal.Gen Idealize.ShloMosaic Idealize.ShloMosaic.TcCoe Idealize.SL.Sem
open Idealize.ShloMosaic.Pipeline (Dat)
open Idealize.ShloMosaic.ValueIdx Cert.Hops

variable (V : (c : Dev nD) → (b : Ref sig .tc) → Buf (Elt Ideal) ((c : Thread nD τ).loc b))

/-- The arrays the call reads, as it finds them, at their literal types: the aggregate, the normalisation column, the
    weights, the bias and the running result. -/
abbrev arrA (c : Dev nD) : FVec Ideal S50000x256 .f32 := V c (Pipeline.arrRef spec3 0)
abbrev arrN (c : Dev nD) : FVec Ideal S50000x1 .f32 := V c (Pipeline.arrRef spec3 1)
abbrev arrW (c : Dev nD) : FVec Ideal S256x256 .f32 := V c (Pipeline.arrRef spec3 2)
abbrev arrB (c : Dev nD) : FVec Ideal S256 .f32 := V c (Pipeline.arrRef spec3 3)
abbrev arrP (c : Dev nD) : FVec Ideal S50000x256 .f32 := V c (Pipeline.arrRef spec3 4)

theorem hz : (![0, 0] : Fin 2 → Nat) = fun _ => 0 := funext fun a => by fin_cases a <;> rfl
theorem hz1 : (![0] : Fin 1 → Nat) = fun _ => 0 := funext fun a => by fin_cases a <;> rfl

/-- The printed index maps over the grid: the three row-blocked inputs and both outputs sit at block row `t`, block
    column `0`; the weights and the bias are one block. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = t.val ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- WHAT POINT `t` WRITES BACK to window 6 is block `t` of the row-scaled aggregate. -/
theorem flushed6_eq (c : Dev nD) (t : Fin cfg3.N) :
    (dat3 V c).flushed 6 t = ((cfg3.win 6).blk t).view.read (Elt Ideal)
      (rowScale (arrA V c) (arrN V c)) := by
  show (cfg3.win 6).cut (grid3.coords t) ((dat3 V c).after 6 t) = _
  rw [after3_6]
  unfold out3_6
  rw [View.canon_unit_zero hz]
  simp only [View.ld_unit_zero (S := S2000x256) hz, View.ld_unit_zero (S := S2000x1) hz]
  rw [Payload.scaled3]
  obtain ⟨a00, a01, a10, a11, -, -, -, -, -, -, -, a60, a61⟩ := idx_facts t
  funext j
  show arrA V c (((cfg3.win 0).blk t).view.emb (ix2 (j 0) (j 1)))
        * arrN V c (((cfg3.win 1).blk t).view.emb (ix2 (j 0) (0 : Fin 1)))
      = arrA V c (ix2 ((((cfg3.win 6).blk t).view.emb j) 0) ((((cfg3.win 6).blk t).view.emb j) 1))
        * arrN V c (ix2 ((((cfg3.win 6).blk t).view.emb j) 0) (0 : Fin 1))
  have h0 : ((cfg3.win 0).blk t).view.emb (ix2 (j 0) (j 1))
      = ix2 ((((cfg3.win 6).blk t).view.emb j) 0) ((((cfg3.win 6).blk t).view.emb j) 1) := by
    funext a; apply Fin.ext
    match a with
    | ⟨0, _⟩ => show win3_0.index t (0 : Fin 2) * 2000 + 1 * (j 0).val = win3_6.index t (0 : Fin 2) * 2000 + 1 * (j 0).val; omega
    | ⟨1, _⟩ => show win3_0.index t (1 : Fin 2) * 256 + 1 * (j 1).val = win3_6.index t (1 : Fin 2) * 256 + 1 * (j 1).val; omega
  have h1 : ((cfg3.win 1).blk t).view.emb (ix2 (j 0) (0 : Fin 1))
      = ix2 ((((cfg3.win 6).blk t).view.emb j) 0) (0 : Fin 1) := by
    funext a; apply Fin.ext
    match a with
    | ⟨0, _⟩ => show win3_1.index t (0 : Fin 2) * 2000 + 1 * (j 0).val = win3_6.index t (0 : Fin 2) * 2000 + 1 * (j 0).val; omega
    | ⟨1, _⟩ => show win3_1.index t (1 : Fin 2) * 1 + 1 * 0 = 0; omega
  rw [h0, h1]
  rfl

/-- Block `t` of the hop of the whole arrays is the hop of the blocks point `t` reads (before the cut-off). -/
theorem hop_block (c : Dev nD) (t : Fin cfg3.N) :
    (cfg3.win 5).cut (grid3.coords t)
        (hop (R := 2000) (D := 256) (E := 256) (iblk3 V c 4 t) (iblk3 V c 0 t) (iblk3 V c 1 t) (iblk3 V c 2 t) (iblk3 V c 3 t))
      = ((cfg3.win 5).blk t).view.read (Elt Ideal) (hop (arrP V c) (arrA V c) (arrN V c) (arrW V c) (arrB V c)) := by
  obtain ⟨a00, a01, a10, a11, a20, a21, a30, a40, a41, a50, a51, -, -⟩ := idx_facts t
  funext j
  show arrP V c (((cfg3.win 4).blk t).view.emb (ix2 (j 0) (j 1)))
      + ((∑ k : Fin 256, (arrA V c (((cfg3.win 0).blk t).view.emb (ix2 (j 0) k))
              * arrN V c (((cfg3.win 1).blk t).view.emb (ix2 (j 0) (0 : Fin 1))))
            * arrW V c (((cfg3.win 2).blk t).view.emb (ix2 k (j 1))))
          + arrB V c (((cfg3.win 3).blk t).view.emb (ix1 (j 1))))
    = arrP V c (ix2 ((((cfg3.win 5).blk t).view.emb j) 0) ((((cfg3.win 5).blk t).view.emb j) 1))
      + ((∑ k : Fin 256, (arrA V c (ix2 ((((cfg3.win 5).blk t).view.emb j) 0) k)
              * arrN V c (ix2 ((((cfg3.win 5).blk t).view.emb j) 0) (0 : Fin 1)))
            * arrW V c (ix2 k ((((cfg3.win 5).blk t).view.emb j) 1)))
          + arrB V c (ix1 ((((cfg3.win 5).blk t).view.emb j) 1)))
  have hP : ((cfg3.win 4).blk t).view.emb (ix2 (j 0) (j 1))
      = ix2 ((((cfg3.win 5).blk t).view.emb j) 0) ((((cfg3.win 5).blk t).view.emb j) 1) := by
    funext a; apply Fin.ext
    match a with
    | ⟨0, _⟩ => show win3_4.index t (0 : Fin 2) * 2000 + 1 * (j 0).val = win3_5.index t (0 : Fin 2) * 2000 + 1 * (j 0).val; omega
    | ⟨1, _⟩ => show win3_4.index t (1 : Fin 2) * 256 + 1 * (j 1).val = win3_5.index t (1 : Fin 2) * 256 + 1 * (j 1).val; omega
  have hA : ∀ k : Fin 256, ((cfg3.win 0).blk t).view.emb (ix2 (j 0) k) = ix2 ((((cfg3.win 5).blk t).view.emb j) 0) k := by
    intro k; funext a; apply Fin.ext
    match a with
    | ⟨0, _⟩ => show win3_0.index t (0 : Fin 2) * 2000 + 1 * (j 0).val = win3_5.index t (0 : Fin 2) * 2000 + 1 * (j 0).val; omega
    | ⟨1, _⟩ => show win3_0.index t (1 : Fin 2) * 256 + 1 * k.val = k.val; omega
  have hN : ((cfg3.win 1).blk t).view.emb (ix2 (j 0) (0 : Fin 1)) = ix2 ((((cfg3.win 5).blk t).view.emb j) 0) (0 : Fin 1) := by
    funext a; apply Fin.ext
    match a with
    | ⟨0, _⟩ => show win3_1.index t (0 : Fin 2) * 2000 + 1 * (j 0).val = win3_5.index t (0 : Fin 2) * 2000 + 1 * (j 0).val; omega
    | ⟨1, _⟩ => show win3_1.index t (1 : Fin 2) * 1 + 1 * 0 = 0; omega
  have hW : ∀ k : Fin 256, ((cfg3.win 2).blk t).view.emb (ix2 k (j 1)) = ix2 k ((((cfg3.win 5).blk t).view.emb j) 1) := by
    intro k; funext a; apply Fin.ext
    match a with
    | ⟨0, _⟩ => show win3_2.index t (0 : Fin 2) * 256 + 1 * k.val = k.val; omega
    | ⟨1, _⟩ => show win3_2.index t (1 : Fin 2) * 256 + 1 * (j 1).val = win3_5.index t (1 : Fin 2) * 256 + 1 * (j 1).val; omega
  have hB : ((cfg3.win 3).blk t).view.emb (ix1 (j 1)) = ix1 ((((cfg3.win 5).blk t).view.emb j) 1) := by
    funext a; apply Fin.ext
    match a with
    | ⟨0, _⟩ => show win3_3.index t (0 : Fin 1) * 256 + 1 * (j 1).val = win3_5.index t (1 : Fin 2) * 256 + 1 * (j 1).val; omega
  rw [hP, hN, hB]
  refine congrArg (fun z => _ + (z + _)) (Finset.sum_congr rfl fun k _ => ?_)
  rw [hA k, hW k]
  rfl

/-- WHAT POINT `t` WRITES BACK to window 5 is block `t` of the cut-off hop of the whole arrays: the cut-off is taken
    entry by entry on both sides of `hop_block`. -/
theorem flushed5_eq (c : Dev nD) (t : Fin cfg3.N) :
    (dat3 V c).flushed 5 t = ((cfg3.win 5).blk t).view.read (Elt Ideal)
      (hopRelu (arrP V c) (arrA V c) (arrN V c) (arrW V c) (arrB V c)) := by
  show (cfg3.win 5).cut (grid3.coords t) ((dat3 V c).after 5 t) = _
  rw [after3_5]
  unfold out3_5
  rw [View.canon_unit_zero hz]
  simp only [View.ld_unit_zero (S := S2000x256) hz, View.ld_unit_zero (S := S2000x1) hz,
    View.ld_unit_zero (S := S256x256) hz, View.ld_unit_zero (S := S256) hz1]
  rw [Payload.result3]
  funext j
  exact congrArg (fun z : Ideal .f32 => max z 0) (congrFun (hop_block V c t) j)

/-! ## The blocks cover the rows -/

theorem mem_blk5 (t : Fin cfg3.N) (i : S50000x256.Idx) :
    i ∈ ((cfg3.win 5).blk t).view.set ↔ ∀ a : Fin 2, win3_5.index t a * S2000x256.size a ≤ (i a).val
      ∧ (i a).val < win3_5.index t a * S2000x256.size a + S2000x256.size a := by
  show i ∈ ((View.whole (Pipeline.arrRef spec3 5)).slice (win3_5.rect t)).set ↔ _
  rw [View.set_slice_whole, Rect.mem_set_unit]
  exact Iff.rfl

theorem mem_blk6 (t : Fin cfg3.N) (i : S50000x256.Idx) :
    i ∈ ((cfg3.win 6).blk t).view.set ↔ ∀ a : Fin 2, win3_6.index t a * S2000x256.size a ≤ (i a).val
      ∧ (i a).val < win3_6.index t a * S2000x256.size a + S2000x256.size a := by
  show i ∈ ((View.whole (Pipeline.arrRef spec3 6)).slice (win3_6.rect t)).set ↔ _
  rw [View.set_slice_whole, Rect.mem_set_unit]
  exact Iff.rfl

/-- Row `r` lies in the block of point `r / 2000`. -/
theorem cover5 (i : S50000x256.Idx) :
    ∃ t : Fin cfg3.N, (cfg3.win 5).flush t = true ∧ i ∈ ((cfg3.win 5).blk t).view.set := by
  have hi0 : (i 0).val < 50000 := (i 0).isLt
  have hi1 : (i 1).val < 256 := (i 1).isLt
  have hlt : (i 0).val / 2000 < grid3.N := by rw [N_3]; omega
  refine ⟨⟨(i 0).val / 2000, hlt⟩, flush3_5 _, ?_⟩
  obtain ⟨-, -, -, -, -, -, -, -, -, a50, a51, -, -⟩ := idx_facts ⟨(i 0).val / 2000, hlt⟩
  rw [mem_blk5]
  intro a
  match a with
  | ⟨0, _⟩ =>
    show win3_5.index ⟨(i 0).val / 2000, hlt⟩ (0 : Fin 2) * 2000 ≤ (i 0).val
      ∧ (i 0).val < win3_5.index ⟨(i 0).val / 2000, hlt⟩ (0 : Fin 2) * 2000 + 2000
    rw [a50]; show (i 0).val / 2000 * 2000 ≤ (i 0).val ∧ (i 0).val < (i 0).val / 2000 * 2000 + 2000; omega
  | ⟨1, _⟩ =>
    show win3_5.index ⟨(i 0).val / 2000, hlt⟩ (1 : Fin 2) * 256 ≤ (i 1).val
      ∧ (i 1).val < win3_5.index ⟨(i 0).val / 2000, hlt⟩ (1 : Fin 2) * 256 + 256
    rw [a51]; omega

theorem cover6 (i : S50000x256.Idx) :
    ∃ t : Fin cfg3.N, (cfg3.win 6).flush t = true ∧ i ∈ ((cfg3.win 6).blk t).view.set := by
  have hi0 : (i 0).val < 50000 := (i 0).isLt
  have hi1 : (i 1).val < 256 := (i 1).isLt
  have hlt : (i 0).val / 2000 < grid3.N := by rw [N_3]; omega
  refine ⟨⟨(i 0).val / 2000, hlt⟩, flush3_6 _, ?_⟩
  obtain ⟨-, -, -, -, -, -, -, -, -, -, -, a60, a61⟩ := idx_facts ⟨(i 0).val / 2000, hlt⟩
  rw [mem_blk6]
  intro a
  match a with
  | ⟨0, _⟩ =>
    show win3_6.index ⟨(i 0).val / 2000, hlt⟩ (0 : Fin 2) * 2000 ≤ (i 0).val
      ∧ (i 0).val < win3_6.index ⟨(i 0).val / 2000, hlt⟩ (0 : Fin 2) * 2000 + 2000
    rw [a60]; show (i 0).val / 2000 * 2000 ≤ (i 0).val ∧ (i 0).val < (i 0).val / 2000 * 2000 + 2000; omega
  | ⟨1, _⟩ =>
    show win3_6.index ⟨(i 0).val / 2000, hlt⟩ (1 : Fin 2) * 256 ≤ (i 1).val
      ∧ (i 1).val < win3_6.index ⟨(i 0).val / 2000, hlt⟩ (1 : Fin 2) * 256 + 256
    rw [a61]; omega

/-! ## The two output arrays after the call -/

/-- The result ends at the cut-off hop of the arrays the call was entered with. -/
theorem final5 (c : Dev nD) :
    (dat3 V c).arrAt 5 cfg3.N = hopRelu (arrP V c) (arrA V c) (arrN V c) (arrW V c) (arrB V c) :=
  (dat3 V c).arrAt_eq_of_cover 5 _ (fun t _ => flushed5_eq V c t) cover5

/-- The features handed to the next hop end at the row-scaled aggregate. -/
theorem final6 (c : Dev nD) : (dat3 V c).arrAt 6 cfg3.N = rowScale (arrA V c) (arrN V c) :=
  (dat3 V c).arrAt_eq_of_cover 6 _ (fun t _ => flushed6_eq V c t) cover6

end Cert.KernelIdeal.Region3

end
-- ==== Proof.Hop3.lean ====
/-
  Hop 3 of 3: from one pallas_call's exit to the next one's. The host stretch between the two calls aggregates the
  features the earlier call handed on and touches nothing else that matters; the later call then writes the
  row-scaled aggregate and the next running result, and leaves the normalisation column, the weights, the bias and
  the two index arrays as they were. So if the arrays hold `H` (features), `Rv` (running result), `nrm`, `w`, `b`,
  `s`, `d` at the earlier call's exit, they hold the row-scaled aggregate of `H`, the hop of `Rv` with that aggregate,
  and the same `nrm`, `w`, `b`, `s`, `d` at the later call's (`step`).
-/
import proofs.«170831_j83562883711802_1_alg».proof.Proof.Fold
import proofs.«170831_j83562883711802_1_alg».proof.Proof.Region3

set_option maxRecDepth 16384

noncomputable section

namespace Cert.Hops.Hop3

open Cert.KernelIdeal Cert.KernelIdeal.Gen Idealize.ShloMosaic Idealize.ShloMosaic.TcCoe Idealize.SL.Sem Idealize.ShloMosaic.StableHlo
open Cert.Hops Cert.Hops.Fold

section Stretch

variable {F : FTy → Type} [FloatOps F]
variable (m : (ℓ : Loc nD τ sig) → Buf (Elt F) ℓ) (ρ : Dev nD → PrngReg)

/-- The stretch aggregates the features the call before handed on. -/
theorem aggregated (c : Dev nD) : W9 m ρ c (Proc.devRef .tc main_v48)
    = aggregate (W8 m ρ c (Proc.devRef .tc main_v36_1)) (W8 m ρ c (Proc.devRef .tc main_v7)) (W8 m ρ c (Proc.devRef .tc main_arg3)) (W8 m ρ c (Proc.devRef .tc main_arg4)) := by
  after_results_simp
  rfl
theorem stretch_norm (c : Dev nD) : W9 m ρ c (Proc.devRef .tc main_v7) = W8 m ρ c (Proc.devRef .tc main_v7) := by after_results
theorem stretch_weights (c : Dev nD) : W9 m ρ c (Proc.devRef .tc main_arg1) = W8 m ρ c (Proc.devRef .tc main_arg1) := by after_results
theorem stretch_bias (c : Dev nD) : W9 m ρ c (Proc.devRef .tc main_arg2) = W8 m ρ c (Proc.devRef .tc main_arg2) := by after_results
theorem stretch_src (c : Dev nD) : W9 m ρ c (Proc.devRef .tc main_arg3) = W8 m ρ c (Proc.devRef .tc main_arg3) := by after_results
theorem stretch_dst (c : Dev nD) : W9 m ρ c (Proc.devRef .tc main_arg4) = W8 m ρ c (Proc.devRef .tc main_arg4) := by after_results
theorem stretch_result (c : Dev nD) : W9 m ρ c (Proc.devRef .tc main_v36_0) = W8 m ρ c (Proc.devRef .tc main_v36_0) := by after_results

/-- The call leaves its input arrays as entered and every array it does not touch as it was. -/
theorem call_norm (c : Dev nD) : W10 m ρ c (Proc.devRef .tc main_v7) = W9 m ρ c (Proc.devRef .tc main_v7) :=
  (W10_arr m ρ c 1).trans (((dat3 (V9 m ρ) c).arrAt_in 1 rfl _).trans (A_eq3 (V9 m ρ) c 1))
theorem call_weights (c : Dev nD) : W10 m ρ c (Proc.devRef .tc main_arg1) = W9 m ρ c (Proc.devRef .tc main_arg1) :=
  (W10_arr m ρ c 2).trans (((dat3 (V9 m ρ) c).arrAt_in 2 rfl _).trans (A_eq3 (V9 m ρ) c 2))
theorem call_bias (c : Dev nD) : W10 m ρ c (Proc.devRef .tc main_arg2) = W9 m ρ c (Proc.devRef .tc main_arg2) :=
  (W10_arr m ρ c 3).trans (((dat3 (V9 m ρ) c).arrAt_in 3 rfl _).trans (A_eq3 (V9 m ρ) c 3))
theorem call_src (c : Dev nD) : W10 m ρ c (Proc.devRef .tc main_arg3) = W9 m ρ c (Proc.devRef .tc main_arg3) :=
  W10_of_ne m ρ c main_arg3 (by decide)
theorem call_dst (c : Dev nD) : W10 m ρ c (Proc.devRef .tc main_arg4) = W9 m ρ c (Proc.devRef .tc main_arg4) :=
  W10_of_ne m ρ c main_arg4 (by decide)
theorem call_result (c : Dev nD) : W10 m ρ c (Proc.devRef .tc main_v49_0) = (dat3 (V9 m ρ) c).arrAt 5 cfg3.N := W10_arr m ρ c 5
theorem call_features (c : Dev nD) : W10 m ρ c (Proc.devRef .tc main_v49_1) = (dat3 (V9 m ρ) c).arrAt 6 cfg3.N := W10_arr m ρ c 6

end Stretch

section Step

variable (m : (ℓ : Loc nD τ sig) → Buf (Elt Ideal) ℓ) (ρ : Dev nD → PrngReg)

/-- The hop, from one call's exit to the next call's exit, at the extended reals. -/
theorem step (c : Dev nD) (H Rv : FVec Ideal S50000x256 .f32) (nrm : FVec Ideal S50000x1 .f32) (w : FVec Ideal S256x256 .f32)
    (b : FVec Ideal S256 .f32) (s d : IVec S800000 32)
    (hH : W8 m ρ c (Proc.devRef .tc main_v36_1) = H) (hR : W8 m ρ c (Proc.devRef .tc main_v36_0) = Rv)
    (hN : W8 m ρ c (Proc.devRef .tc main_v7) = nrm) (hW : W8 m ρ c (Proc.devRef .tc main_arg1) = w) (hB : W8 m ρ c (Proc.devRef .tc main_arg2) = b)
    (hS : W8 m ρ c (Proc.devRef .tc main_arg3) = s) (hD : W8 m ρ c (Proc.devRef .tc main_arg4) = d) :
    W10 m ρ c (Proc.devRef .tc main_v49_1) = rowScale (aggregate (F := Ideal) H nrm s d) nrm
    ∧ W10 m ρ c (Proc.devRef .tc main_v49_0) = hopRelu Rv (aggregate (F := Ideal) H nrm s d) nrm w b
    ∧ W10 m ρ c (Proc.devRef .tc main_v7) = nrm ∧ W10 m ρ c (Proc.devRef .tc main_arg1) = w ∧ W10 m ρ c (Proc.devRef .tc main_arg2) = b
    ∧ W10 m ρ c (Proc.devRef .tc main_arg3) = s ∧ W10 m ρ c (Proc.devRef .tc main_arg4) = d := by
  have eA : W9 m ρ c (Proc.devRef .tc main_v48) = aggregate (F := Ideal) H nrm s d := by rw [aggregated, hH, hN, hS, hD]
  have eN : W9 m ρ c (Proc.devRef .tc main_v7) = nrm := (stretch_norm m ρ c).trans hN
  have eW : W9 m ρ c (Proc.devRef .tc main_arg1) = w := (stretch_weights m ρ c).trans hW
  have eB : W9 m ρ c (Proc.devRef .tc main_arg2) = b := (stretch_bias m ρ c).trans hB
  have eS : W9 m ρ c (Proc.devRef .tc main_arg3) = s := (stretch_src m ρ c).trans hS
  have eD : W9 m ρ c (Proc.devRef .tc main_arg4) = d := (stretch_dst m ρ c).trans hD
  have eR : W9 m ρ c (Proc.devRef .tc main_v36_0) = Rv := (stretch_result m ρ c).trans hR
  refine ⟨?_, ?_, (call_norm m ρ c).trans eN, (call_weights m ρ c).trans eW, (call_bias m ρ c).trans eB,
    (call_src m ρ c).trans eS, (call_dst m ρ c).trans eD⟩
  · rw [call_features, Cert.KernelIdeal.Region3.final6]
    show rowScale (W9 m ρ c (Proc.devRef .tc main_v48)) (W9 m ρ c (Proc.devRef .tc main_v7)) = _
    rw [eA, eN]
  · rw [call_result, Cert.KernelIdeal.Region3.final5]
    show hopRelu (W9 m ρ c (Proc.devRef .tc main_v36_0)) (W9 m ρ c (Proc.devRef .tc main_v48)) (W9 m ρ c (Proc.devRef .tc main_v7))
      (W9 m ρ c (Proc.devRef .tc main_arg1)) (W9 m ρ c (Proc.devRef .tc main_arg2)) = _
    rw [eR, eA, eN, eW, eB]

end Step

end Cert.Hops.Hop3

end
-- ==== Proof.RefSide.lean ====
/-
  The reference's stages, read at the extended reals, are the spec's functions of the stages before them: the product
  with the broadcast normalisation column is `rowScale`; the `dot_general` with the weights plus the broadcast bias is
  `affine`; adding that, times the constant `1.0`, to the running result is `hop`; the closing `maximum` with zero makes
  the last one `hopRelu`. The host's `dot_general` at an entry is the sum over the contracted index, the two
  broadcasts of the bias read its entry of the column, and the all-ones array is the real `1` everywhere.
-/
import proofs.«170831_j83562883711802_1_alg».proof.Proof.Gen.ReferenceIdeal.Read
import proofs.«170831_j83562883711802_1_alg».proof.Proof.Spec

noncomputable section

open scoped BigOperators

namespace Cert.ReferenceIdeal.Stages

open Cert.ReferenceIdeal Cert.ReferenceIdeal.Gen Cert.ReferenceIdeal.Read
open Idealize.ShloMosaic Idealize.ShloMosaic.ValueIdx Cert.Hops

/-- The normalisation column broadcast over the columns reads at `(r, c)` its entry of row `r`. -/
theorem normB_at (n : FVec Ideal S50000x1 .f32) (r : Fin 50000) (c : Fin 256) :
    broadcastInDim S50000x256 ![0, 1] bcast_S50000x1_S50000x256_0_1 n (ix2 r c) = n (ix2 r (0 : Fin 1)) := by
  refine broadcastInDim_apply _ bcast_S50000x1_S50000x256_0_1 n (ix2 r c) (ix2 r (0 : Fin 1)) (fun a => ?_)
  match a with
  | ⟨0, _⟩ => show r.val = if (50000 : Nat) = 1 then 0 else r.val; rw [if_neg (by decide)]
  | ⟨1, _⟩ => show 0 = if (1 : Nat) = 1 then 0 else c.val; rw [if_pos rfl]

theorem scale_eq (A : FVec Ideal S50000x256 .f32) (n : FVec Ideal S50000x1 .f32) :
    mulf A (broadcastInDim S50000x256 ![0, 1] bcast_S50000x1_S50000x256_0_1 n) = rowScale A n := by
  funext i
  obtain ⟨r, c, rfl⟩ : ∃ (r : Fin 50000) (c : Fin 256), i = ix2 r c := ⟨i 0, i 1, eq_ix2 i⟩
  rw [mulf_apply, normB_at, rowScale_ix2]

/-- The host's product with the weights at entry `(r, c)`: the sum over `k` of row `r` times column `c`. -/
theorem dot_at (h : FVec Ideal S50000x256 .f32) (w : FVec Ideal S256x256 .f32) (r : Fin 50000) (c : Fin 256) :
    val_main_v8 (F := Ideal) h w (ix2 r c) = ∑ k : Fin 256, h (ix2 r k) * w (ix2 k c) := by
  rw [val_main_v8_apply]
  refine Finset.sum_congr rfl fun k _ => ?_
  have el : lidx_main_v8 (ix2 r c) k = ix2 r k := funext fun a => Fin.ext (by
    match a with
    | ⟨0, _⟩ => rfl
    | ⟨1, _⟩ => rfl)
  have er : ridx_main_v8 (ix2 r c) k = ix2 k c := funext fun a => Fin.ext (by
    match a with
    | ⟨0, _⟩ => rfl
    | ⟨1, _⟩ => rfl)
  rw [el, er]

/-- The bias broadcast to one row and then over the rows reads at `(r, c)` its entry `c`. -/
theorem biasB_at (b : FVec Ideal S256 .f32) (r : Fin 50000) (c : Fin 256) :
    val_main_v10 (F := Ideal) b (ix2 r c) = b (ix1 c) := by
  rw [val_main_v10_apply, val_main_v9_apply]
  exact congrArg b (funext fun a => Fin.ext (by
    match a with
    | ⟨0, _⟩ => rfl))

theorem affine_eq (h : FVec Ideal S50000x256 .f32) (w : FVec Ideal S256x256 .f32) (b : FVec Ideal S256 .f32) :
    addf (val_main_v8 (F := Ideal) h w) (val_main_v10 (F := Ideal) b) = affine h w b := by
  funext i
  obtain ⟨r, c, rfl⟩ : ∃ (r : Fin 50000) (c : Fin 256), i = ix2 r c := ⟨i 0, i 1, eq_ix2 i⟩
  rw [addf_apply, dot_at, biasB_at, affine_ix2]

/-- The constant `1.0` broadcast over the array is the real `1` at every entry. -/
theorem ones_at (i : S50000x256.Idx) : val_main_v30 (F := Ideal) i = 1 := by
  rw [val_main_v30_apply, val_main_cst_5_apply]
  exact one_f32

/-- The constant `0.0` the closing maximum compares with is the real `0` at every entry. -/
theorem zeros_at (i : S50000x256.Idx) : val_main_call1_v0 (F := Ideal) i = 0 := by
  rw [val_main_call1_v0_apply, val_main_call1_cst_apply]
  exact zero_f32

/-- One hop in the reference's operations. -/
theorem hop_eq (p A : FVec Ideal S50000x256 .f32) (n : FVec Ideal S50000x1 .f32) (w : FVec Ideal S256x256 .f32) (b : FVec Ideal S256 .f32) :
    addf p (mulf (addf (val_main_v8 (F := Ideal) (mulf A (broadcastInDim S50000x256 ![0, 1] bcast_S50000x1_S50000x256_0_1 n)) w)
        (val_main_v10 (F := Ideal) b)) (val_main_v30 (F := Ideal))) = hop p A n w b := by
  rw [scale_eq, affine_eq]
  funext i
  obtain ⟨r, c, rfl⟩ : ∃ (r : Fin 50000) (c : Fin 256), i = ix2 r c := ⟨i 0, i 1, eq_ix2 i⟩
  rw [addf_apply, mulf_apply, ones_at, mul_one]
  rfl

/-! ## The stages, one hop after the other -/

variable (x : FVec Ideal S50000x256 .f32) (w : FVec Ideal S256x256 .f32) (b : FVec Ideal S256 .f32) (s d : IVec S800000 32)

/-- Hop 0: the features' affine image. -/
theorem result0 : val_main_v11 (F := Ideal) x w b = affine x w b := affine_eq x w b

theorem scaled1 : val_main_v25 (F := Ideal) x s d = rowScale (val_main_v23 (F := Ideal) x s d) (val_main_v7 (F := Ideal) s) :=
  scale_eq _ _
theorem result1 : val_main_v32 (F := Ideal) x w b s d
    = hop (val_main_v11 (F := Ideal) x w b) (val_main_v23 (F := Ideal) x s d) (val_main_v7 (F := Ideal) s) w b :=
  hop_eq _ _ _ _ _

theorem scaled2 : val_main_v46 (F := Ideal) x s d = rowScale (val_main_v44 (F := Ideal) x s d) (val_main_v7 (F := Ideal) s) :=
  scale_eq _ _
theorem result2 : val_main_v53 (F := Ideal) x w b s d
    = hop (val_main_v32 (F := Ideal) x w b s d) (val_main_v44 (F := Ideal) x s d) (val_main_v7 (F := Ideal) s) w b :=
  hop_eq _ _ _ _ _

theorem scaled3 : val_main_v67 (F := Ideal) x s d = rowScale (val_main_v65 (F := Ideal) x s d) (val_main_v7 (F := Ideal) s) :=
  scale_eq _ _
/-- The last hop, with the closing maximum against zero. -/
theorem result3 : val_main_v75 (F := Ideal) x w b s d
    = hopRelu (val_main_v53 (F := Ideal) x w b s d) (val_main_v65 (F := Ideal) x s d) (val_main_v7 (F := Ideal) s) w b := by
  have h : val_main_v74 (F := Ideal) x w b s d
      = hop (val_main_v53 (F := Ideal) x w b s d) (val_main_v65 (F := Ideal) x s d) (val_main_v7 (F := Ideal) s) w b :=
    hop_eq _ _ _ _ _
  funext i
  rw [val_main_v75_apply, h, zeros_at]
  rfl

end Cert.ReferenceIdeal.Stages

end
-- ==== Proof.KernelValue.lean ====
/-
  The kernel program's result array, read at the extended reals, is the reference's last stage of the same
  arguments. The first call scales the features by an all-ones column (so hands them on unchanged) and adds their
  affine image to the zero array; each of the three hops then maps the features `H` and the running result `Rv` to
  `rowScale (aggregate H nrm s d) nrm` and `hop Rv (aggregate H nrm s d) nrm w b` (the last with the cut-off at zero),
  the normalisation column, weights, bias and index arrays staying as they are. The reference's stages satisfy the
  same recurrences from the same start, so the two final arrays are one function of the arguments.
-/
import proofs.«170831_j83562883711802_1_alg».proof.Proof.Fold
import proofs.«170831_j83562883711802_1_alg».proof.Proof.Region0
import proofs.«170831_j83562883711802_1_alg».proof.Proof.Hop1
import proofs.«170831_j83562883711802_1_alg».proof.Proof.Hop2
import proofs.«170831_j83562883711802_1_alg».proof.Proof.Hop3
import proofs.«170831_j83562883711802_1_alg».proof.Proof.RefSide

set_option maxRecDepth 16384

noncomputable section

namespace Cert.Hops.Value

open Cert.KernelIdeal Cert.KernelIdeal.Gen Idealize.ShloMosaic Idealize.ShloMosaic.TcCoe Idealize.SL.Sem Idealize.ShloMosaic.StableHlo
open Idealize.ShloMosaic.ValueIdx Cert.Hops Cert.Hops.Fold

variable (m : (ℓ : Loc nD τ sig) → Buf (Elt Ideal) ℓ) (ρ : Dev nD → PrngReg)

/-- The arguments as launched, at their literal types: features, weights, bias, source and destination indices. -/
abbrev argX (c : Dev nD) : FVec Ideal S50000x256 .f32 := (m ((c : Thread nD τ).loc main_arg0))
abbrev argW (c : Dev nD) : FVec Ideal S256x256 .f32 := (m ((c : Thread nD τ).loc main_arg1))
abbrev argB (c : Dev nD) : FVec Ideal S256 .f32 := (m ((c : Thread nD τ).loc main_arg2))
abbrev argS (c : Dev nD) : IVec S800000 32 := (m ((c : Thread nD τ).loc main_arg3))
abbrev argD (c : Dev nD) : IVec S800000 32 := (m ((c : Thread nD τ).loc main_arg4))
/-- The normalisation column of the source indices (the reference's stage). -/
abbrev norm (c : Dev nD) : FVec Ideal S50000x1 .f32 := Cert.ReferenceIdeal.Read.val_main_v7 (F := Ideal) (argS m c)

/-- The broadcast constant `1.0` is the real one at every entry, the broadcast `0.0` the real zero. -/
theorem ones_apply (i : S50000x1.Idx) :
    broadcastInDim S50000x1 ![] bcast_S_S50000x1 (constant (F := Ideal) S_ .f32 0x3F800000#32) i = 1 := by
  rw [broadcastInDim_apply _ bcast_S_S50000x1 _ i (fun a => a.elim0) (fun a => a.elim0)]
  exact one_f32
theorem zeros_apply (i : S50000x256.Idx) :
    broadcastInDim S50000x256 ![] bcast_S_S50000x256 (constant (F := Ideal) S_ .f32 0x00000000#32) i = 0 := by
  rw [broadcastInDim_apply _ bcast_S_S50000x256 _ i (fun a => a.elim0) (fun a => a.elim0)]
  exact zero_f32

/-! ## After the first call -/

/-- It hands the features on unchanged: every row scaled by one. -/
theorem first_features_eq (c : Dev nD) : W4 m ρ c (Proc.devRef .tc main_v10_1) = argX m c := by
  rw [first_features, Cert.KernelIdeal.Region0.final6]
  show rowScale (W3 m ρ c (Proc.devRef .tc main_arg0)) (W3 m ρ c (Proc.devRef .tc main_v8)) = _
  rw [entry_x, entry_ones]
  exact rowScale_ones _ _ ones_apply

/-- The running result is the features' affine image: the hop from the zero array with the all-ones column. -/
theorem first_result_eq (c : Dev nD) : W4 m ρ c (Proc.devRef .tc main_v10_0) = affine (argX m c) (argW m c) (argB m c) := by
  rw [first_result, Cert.KernelIdeal.Region0.final5]
  show hop (W3 m ρ c (Proc.devRef .tc main_v9)) (W3 m ρ c (Proc.devRef .tc main_arg0)) (W3 m ρ c (Proc.devRef .tc main_v8))
    (W3 m ρ c (Proc.devRef .tc main_arg1)) (W3 m ρ c (Proc.devRef .tc main_arg2)) = _
  rw [entry_zeros, entry_x, entry_ones, entry_w, entry_b, hop_zero _ _ _ _ _ zeros_apply, rowScale_ones _ _ ones_apply]

/-! ## After the last call -/

/-- THE RESULT ARRAY after the last call is the reference's last stage of the launch arguments. -/
theorem kernel_value (c : Dev nD) : W10 m ρ c (Proc.devRef .tc main_v49_0)
    = Cert.ReferenceIdeal.Read.val_main_v75 (F := Ideal) (argX m c) (argW m c) (argB m c) (argS m c) (argD m c) := by
  obtain ⟨h1H, h1R, h1N, h1W, h1B, h1S, h1D⟩ := Hop1.step m ρ c (argX m c) (affine (argX m c) (argW m c) (argB m c))
    (norm m c) (argW m c) (argB m c) (argS m c) (argD m c)
    (first_features_eq m ρ c) (first_result_eq m ρ c) ((first_norm m ρ c).trans (entry_norm m ρ c))
    ((first_weights m ρ c).trans (entry_w m ρ c)) ((first_bias m ρ c).trans (entry_b m ρ c))
    ((first_src m ρ c).trans (entry_s m ρ c)) ((first_dst m ρ c).trans (entry_d m ρ c))
  obtain ⟨h2H, h2R, h2N, h2W, h2B, h2S, h2D⟩ := Hop2.step m ρ c _ _ (norm m c) (argW m c) (argB m c) (argS m c) (argD m c)
    h1H h1R h1N h1W h1B h1S h1D
  obtain ⟨-, h3R, -, -, -, -, -⟩ := Hop3.step m ρ c _ _ (norm m c) (argW m c) (argB m c) (argS m c) (argD m c)
    h2H h2R h2N h2W h2B h2S h2D
  refine h3R.trans ?_
  symm
  rw [Cert.ReferenceIdeal.Stages.result3, Cert.ReferenceIdeal.Stages.result2, Cert.ReferenceIdeal.Stages.result1, Cert.ReferenceIdeal.Stages.result0,
    ← aggregate_ref3, Cert.ReferenceIdeal.Stages.scaled2, ← aggregate_ref2, Cert.ReferenceIdeal.Stages.scaled1, ← aggregate_ref1]

end Cert.Hops.Value

end
-- ==== Proof.lean ====
/-
  The certificate of a three-hop graph propagation kernel against its jnp reference, over the extended reals.

  Both programs compute, from features `x`, weights `w`, bias `b` and the edge lists `src`, `dst`:
      nrm   = max(1, outdegree)^(-1/2)                     (one entry per node)
      r₀    = x · w + b,                 h₀ = x
      aₜ    = Σ_{edges u → v} (hₜ₋₁ · nrm)[u]  into row v   (t = 1, 2, 3)
      hₜ    = aₜ · nrm,                  rₜ = rₜ₋₁ + (hₜ · w + b) · 1
      out   = max(r₃, 0).
  The kernel program runs the dense part — the scaling by `nrm`, the product with `w`, the bias, the running sum
  and (last) the cut-off — as one pallas_call per hop over 25 row blocks of 2000 rows, hop 0 as the same call with an
  all-ones column in place of `nrm` and a zero array in place of the running result; the gather and the scatter-add
  between the calls are the reference's own host operations. At the extended reals the bf16 casts before the product
  are the identity, the block products are the rows of the whole product, `y · 1 = y` and `0 + y = y`; none of these
  needs the inputs finite, so the precondition is not opened.

  The three frames are the generated ones (the reference's is its generated run with the result dropped); the
  idealization rewrote nothing, so `preserves` is trivial; for `algebraic` the kernel program's run is taken with its
  result array named (Proof/KernelRun.lean), that array is shown to be the reference's last stage of the arguments
  (Proof/KernelValue.lean over the per-call modules Proof/Region0 … Region3 and the per-hop modules Proof/Hop1 … Hop3),
  and the reference's generated run ends at that same stage.
-/
import proofs.«170831_j83562883711802_1_alg».proof.Defs
import proofs.«170831_j83562883711802_1_alg».proof.Proof.Gen.Kernel
import proofs.«170831_j83562883711802_1_alg».proof.Proof.Gen.Kernel.Frame
import proofs.«170831_j83562883711802_1_alg».proof.Proof.Gen.KernelIdeal
import proofs.«170831_j83562883711802_1_alg».proof.Proof.Gen.KernelIdeal.Frame
import proofs.«170831_j83562883711802_1_alg».proof.Proof.Gen.ReferenceIdeal
import proofs.«170831_j83562883711802_1_alg».proof.Proof.Gen.ReferenceIdeal.Run
import proofs.«170831_j83562883711802_1_alg».proof.Proof.Gen.ReferenceIdeal.Read
import proofs.«170831_j83562883711802_1_alg».proof.Proof.Gen.Pre_finite_inputs
import proofs.«170831_j83562883711802_1_alg».proof.Proof.KernelRun
import proofs.«170831_j83562883711802_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the reference's last stage of the (agreeing) arguments in their result arrays. -/
theorem algebraic : Cert.algebraic_KernelIdeal_ReferenceIdeal := by
  intro m ρ m' ρ' _ hagree
  refine ⟨fun c => Cert.ReferenceIdeal.Read.val_main_v75 (F := Ideal) (Cert.Hops.Value.argX m c) (Cert.Hops.Value.argW m c)
      (Cert.Hops.Value.argB m c) (Cert.Hops.Value.argS m c) (Cert.Hops.Value.argD m c), ?_, ?_⟩
  · exact (θ_run Cert.KernelIdeal.defs _ _).mono
      (fun r h c => ⟨(h c).1.trans (Cert.Hops.Value.kernel_value m ρ c), (h c).2⟩)
      (Cert.KernelIdeal.Run.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v75_eq, (hagree c).1, (hagree c).2.1, (hagree c).2.2.1, (hagree c).2.2.2.1,
      (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
